-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x17 : Shape := ⟨2, ![64, 17]⟩
abbrev S17 : Shape := ⟨1, ![17]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x17 : S_.BroadcastsInDim S64x17 (![] : Fin 0 → Fin S64x17.rank)
  reducesTo_S64x17_S_d0_1 : S64x17.ReducesTo [0, 1] S_
  bcast_S_S17 : S_.BroadcastsInDim S17 (![] : Fin 0 → Fin S17.rank)
  reducesTo_S17_S_d0 : S17.ReducesTo [0] S_

variable [Facts]

def fn_part4 {F : FTy → Type} [FloatOps F] (main_arg15 : FVec F S17 .f32) (main_arg16 : FVec F S64x17 .f32) (main_v63 : IVec S_ 1) (main_v67 : IVec S_ 1) : IVec S_ 1 :=
  let main_v68 : IVec S_ 1 := andi main_v63 main_v67
  let main_v69 : FVec F S17 .f32 := Host.absf main_arg15
  let main_cst_26 : FVec F S_ .f32 := constant S_ .f32 0x7F800000#32
  let main_v70 : FVec F S17 .f32 := broadcastInDim S17 ![] bcast_S_S17 main_cst_26
  let main_v71 : IVec S17 1 := cmpf .olt main_v69 main_v70
  let main_c_27 : IVec S_ 1 := constantI S_ 1 1#1
  let main_v72 : IVec S_ 1 := (fun x v => Host.reduce IntOp.andi x v reducesTo_S17_S_d0 h_S_) main_v71 main_c_27
  let main_v73 : IVec S_ 1 := andi main_v68 main_v72
  let main_v74 : FVec F S64x17 .f32 := Host.absf main_arg16
  let main_cst_28 : FVec F S_ .f32 := constant S_ .f32 0x7F800000#32
  let main_v75 : FVec F S64x17 .f32 := broadcastInDim S64x17 ![] bcast_S_S64x17 main_cst_28
  let main_v76 : IVec S64x17 1 := cmpf .olt main_v74 main_v75
  let main_c_29 : IVec S_ 1 := constantI S_ 1 1#1
  let main_v77 : IVec S_ 1 := (fun x v => Host.reduce IntOp.andi x v reducesTo_S64x17_S_d0_1 h_S_) main_v76 main_c_29
  let main_v78 : IVec S_ 1 := andi main_v73 main_v77
  main_v78

def fn_part3 {F : FTy → Type} [FloatOps F] (main_arg12 : FVec F S64 .f32) (main_arg13 : FVec F S64x64 .f32) (main_arg14 : FVec F S64x17 .f32) (main_arg15 : FVec F S17 .f32) (main_arg16 : FVec F S64x17 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x17 .f32 := Host.absf main_arg14
  let main_cst_24 : FVec F S_ .f32 := constant S_ .f32 0x7F800000#32
  let main_v65 : FVec F S64x17 .f32 := broadcastInDim S64x17 ![] bcast_S_S64x17 main_cst_24
  let main_v66 : IVec S64x17 1 := cmpf .olt main_v64 main_v65
  let main_c_25 : IVec S_ 1 := constantI S_ 1 1#1
  let main_v67 : IVec S_ 1 := (fun x v => Host.reduce IntOp.andi x v reducesTo_S64x17_S_d0_1 h_S_) main_v66 main_c_25
  fn_part4 (F := F) main_arg15 main_arg16 main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x17 .f32) (main_arg15 : FVec F S17 .f32) (main_arg16 : FVec F S64x17 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x17 .f32) (main_arg15 : FVec F S17 .f32) (main_arg16 : FVec F S64x17 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x17 .f32) (main_arg15 : FVec F S17 .f32) (main_arg16 : FVec F S64x17 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x17 : Shape := ⟨2, ![64, 17]⟩
abbrev S17 : Shape := ⟨1, ![17]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S10000x64 : Shape := ⟨2, ![10000, 64]⟩
abbrev S1x64 : Shape := ⟨2, ![1, 64]⟩
abbrev S100000x17 : Shape := ⟨2, ![100000, 17]⟩
abbrev S10000x17 : Shape := ⟨2, ![10000, 17]⟩
abbrev S1x17 : Shape := ⟨2, ![1, 17]⟩

abbrev nBuf : Space → Nat
  | .hbm => 114
  | .vmem => 45
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x17, .f32⟩
  | .hbm, ⟨15, _⟩ => ⟨S17, .f32⟩
  | .hbm, ⟨16, _⟩ => ⟨S64x17, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .f32⟩
  | .hbm, ⟨107, _⟩ => ⟨S_, .f32⟩
  | .hbm, ⟨108, _⟩ => ⟨S100000x64, .f32⟩
  | .hbm, ⟨109, _⟩ => ⟨S1600000x1, .i32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S100000x17, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S64, .f32⟩
  | .local _ .vmem, ⟨33, _⟩ => ⟨S64x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x17, .f32⟩
  | .local _ .vmem, ⟨41, _⟩ => ⟨S17, .f32⟩
  | .local _ .vmem, ⟨42, _⟩ => ⟨S64x17, .f32⟩
  | .local _ .vmem, ⟨43, _⟩ => ⟨S10000x17, .f32⟩
  | .local _ .vmem, ⟨44, _⟩ => ⟨S10000x17, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_c_12 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x17 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S17 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x17 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x17 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x17_S64x17_0_0 : ∀ a, (![0, 0] : Fin 2 → Nat) a + S64x17.size a ≤ S64x17.size a
  h_S64x17 : 0 < S64x17.numel
  inb_S17_S17_0 : ∀ a, (![0] : Fin 1 → Nat) a + S17.size a ≤ S17.size a
  h_S17 : 0 < S17.numel
  shapeCasts_S17_S1x17 : S17.ShapeCasts S1x17
  broadcasts_S1x17_S10000x17 : S1x17.Broadcasts S10000x17
  inb_S10000x17_S10000x17_0_0 : ∀ a, (![0, 0] : Fin 2 → Nat) a + S10000x17.size a ≤ S10000x17.size a
  h_S10000x17 : 0 < S10000x17.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x17_S10000x17_1_0_0_1_n_n_wf : DotDims.WF S10000x64 S64x17 S10000x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x17.size a ≤ S64x17.size a
  hwx4_2 : ∀ i : grid4.Coords, EltTy.bits .f32 = 32 ∨ (Rect.block (s := S64x17) S64x17.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S17.size a ≤ S17.size a
  hwx4_3 : ∀ i : grid4.Coords, EltTy.bits .f32 = 32 ∨ (Rect.block (s := S17) S17.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x17.size a ≤ S64x17.size a
  hwx4_4 : ∀ i : grid4.Coords, EltTy.bits .f32 = 32 ∨ (Rect.block (s := S64x17) S64x17.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x17.size a ≤ S100000x17.size a
  hwx4_5 : ∀ i : grid4.Coords, EltTy.bits .f32 = 32 ∨ (Rect.block (s := S100000x17) S10000x17.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x17_S10000x17_1_0_0_1_n_n : DotDims S10000x64 S64x17 S10000x17 where
  lhsContracting := [1]
  rhsContracting := [0]
  lhsNonContracting := [0]
  rhsNonContracting := [1]
  lhsBatch := []
  rhsBatch := []
  wf := dot_S10000x64_S64x17_S10000x17_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x17.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S17.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S64x17.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S10000x17.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x17 : Shape := ⟨2, ![64, 17]⟩
abbrev S17 : Shape := ⟨1, ![17]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x17 : Shape := ⟨2, ![100000, 17]⟩
abbrev S1x17 : Shape := ⟨2, ![1, 17]⟩

abbrev nBuf : Space → Nat
  | .hbm => 191
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x17, .f32⟩
  | 15 => ⟨S17, .f32⟩
  | 16 => ⟨S64x17, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x64, .f32⟩
  | 53 => ⟨S100000x64, .f32⟩
  | 54 => ⟨S100000x17, .f32⟩
  | 55 => ⟨S1x17, .f32⟩
  | 56 => ⟨S100000x17, .f32⟩
  | 57 => ⟨S100000x17, .f32⟩
  | 58 => ⟨S100000x17, .f32⟩
  | 59 => ⟨S100000x17, .f32⟩
  | 60 => ⟨S_, .f32⟩
  | 61 => ⟨S100000x17, .f32⟩
  | 62 => ⟨S100000x17, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call2_cst : Ref sig .tc := ⟨.hbm, 120, rfl⟩
abbrev main_call2_v0 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_18 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_21 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call3_cst : Ref sig .tc := ⟨.hbm, 154, rfl⟩
abbrev main_call3_v0 : Ref sig .tc := ⟨.hbm, 155, rfl⟩
abbrev main_v107 : Ref sig .tc := ⟨.hbm, 156, rfl⟩
abbrev main_c_22 : Ref sig .tc := ⟨.hbm, 157, rfl⟩
abbrev main_v108 : Ref sig .tc := ⟨.hbm, 158, rfl⟩
abbrev main_v109 : Ref sig .tc := ⟨.hbm, 159, rfl⟩
abbrev main_c_23 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_25 : Ref sig .tc := ⟨.hbm, 170, rfl⟩
abbrev main_v118 : Ref sig .tc := ⟨.hbm, 171, rfl⟩
abbrev main_cst_26 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_call4_cst : Ref sig .tc := ⟨.hbm, 188, rfl⟩
abbrev main_call4_v0 : Ref sig .tc := ⟨.hbm, 189, rfl⟩
abbrev main_v133 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S17_S1x17_1 : S17.BroadcastsInDim S1x17 (![1] : Fin 1 → Fin S1x17.rank)
  bcast_S1x17_S100000x17_0_1 : S1x17.BroadcastsInDim S100000x17 (![0, 1] : Fin 2 → Fin S100000x17.rank)
  bcast_S_S100000x17 : S_.BroadcastsInDim S100000x17 (![] : Fin 0 → Fin S100000x17.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x17_S100000x17_1_0_0_1_n_n_wf : DotDims.WF S100000x64 S64x17 S100000x17 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x17_S100000x17_1_0_0_1_n_n : DotDims S100000x64 S64x17 S100000x17 where
  lhsContracting := [1]
  rhsContracting := [0]
  lhsNonContracting := [0]
  rhsNonContracting := [1]
  lhsBatch := []
  rhsBatch := []
  wf := dot_S100000x64_S64x17_S100000x17_1_0_0_1_n_n_wf

class Facts : Prop extends Facts₀ where

variable [Facts]
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.LibFinite.lean ====
/-
  Finiteness of extended-real arrays, program-free.

  At the ideal reading of floats (extended reals) an array is ALL REAL when each of its entries is the coercion
  of a real number. Sums distribute over products on the reals but not at the infinities, so an algebraic
  argument about a network of sums, products, quotients and maxima first shows that every intermediate array is
  all real. This file proves that the property is closed under each operation such a network is made of:
  entrywise sum, difference, negation, product, maximum and minimum; a change of float format (the identity on
  extended reals); every re-indexing (shape cast, broadcast, transpose, slice, gather); a constant whose bit
  pattern denotes a real; an accumulating scatter (an entry plus a finite sum of entries); a quotient by reals
  that are not zero; and a contraction (an entry plus a finite sum of products).
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

/-! ## Single extended reals that are real -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of reals into the extended reals commutes with the maximum. -/
theorem coe_max (a b : ℝ) : ((max a b : ℝ) : EReal) = max (a : EReal) (b : EReal) :=
  EReal.coe_strictMono.monotone.map_max

/-- The coercion of reals into the extended reals commutes with the minimum. -/
theorem coe_min (a b : ℝ) : ((min a b : ℝ) : EReal) = min (a : EReal) (b : EReal) :=
  EReal.coe_strictMono.monotone.map_min

/-- The maximum of two reals is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The minimum of two reals is real. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (coe_min a b).symm⟩

/-- A finite sum of coerced reals is the coercion of the sum of the reals. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of reals is real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨ra, hra⟩ := h a (Finset.mem_insert_self a t)
    obtain ⟨rt, hrt⟩ := ih (fun i hi => h i (Finset.mem_insert_of_mem hi))
    exact ⟨ra + rt, by rw [Finset.sum_insert ha, hra, hrt, EReal.coe_add]⟩

/-- The quotient of a real by a real that is not zero is the coercion of the real quotient. -/
theorem div_coe_coe (a : ℝ) {r : ℝ} (h : r ≠ 0) : Ideal.div (a : EReal) (r : EReal) = ((a / r : ℝ) : EReal) := by
  rw [Ideal.div_coe h, ← EReal.coe_mul, mul_one_div]

/-- The quotient of a real by a real that is not zero is real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-! ## Bit patterns that denote reals -/

/-- The f32 pattern of zero denotes the real zero. -/
theorem ofBits_zero_f32_real : Ideal.ofBits .f32 0x00000000#32 = ((0 : ℝ) : EReal) := by
  rw [Ideal.ofBits_zero_f32, EReal.coe_zero]

/-- The f32 pattern 0x3F800000 denotes the real one. -/
theorem ofBits_one_f32_real : Ideal.ofBits .f32 0x3F800000#32 = ((1 : ℝ) : EReal) := by
  simp [Ideal.ofBits, Ideal.ieee, -EReal.coe_mul]; norm_num

/-- The f32 pattern 0x3F800000 denotes the extended real one. -/
theorem ofBits_one_f32 : Ideal.ofBits .f32 0x3F800000#32 = 1 := by
  rw [ofBits_one_f32_real, EReal.coe_one]

/-- The f32 pattern 0x3F000000 denotes the real one half. -/
theorem ofBits_half_f32_real : Ideal.ofBits .f32 0x3F000000#32 = (((1 : ℝ) / 2 : ℝ) : EReal) := by
  simp [Ideal.ofBits, Ideal.ieee, -EReal.coe_mul]; norm_num

/-! ## Arrays all of whose entries are real

An array of extended reals does not record a float format, so where a closure theorem below is applied with no
expected type to read it from, the format is given by name, as in `allReal_scatterAdd (φ := .f32) d idx hx hu`. -/

/-- Every entry is a real number. -/
def AllReal {s : Shape} (v : s.Idx → EReal) : Prop := ∀ i, ∃ r : ℝ, v i = (r : EReal)

variable {s t : Shape} {φ : FTy}

/-- An all-real array is the coercion of a real-valued array. -/
theorem AllReal.exists_real {v : s.Idx → EReal} (h : AllReal v) : ∃ f : s.Idx → ℝ, v = fun i => (f i : EReal) := by
  choose f hf using h
  exact ⟨f, funext hf⟩

/-- The coercion of a real-valued array is all real. -/
theorem allReal_coe (f : s.Idx → ℝ) : AllReal (fun i => (f i : EReal)) := fun i => ⟨f i, rfl⟩

/-- An array equal entry by entry to a real-valued one is all real. -/
theorem allReal_of_eq {v : s.Idx → EReal} (f : s.Idx → ℝ) (h : ∀ i, v i = (f i : EReal)) : AllReal v :=
  fun i => ⟨f i, h i⟩

/-! ### Entrywise arithmetic -/

/-- The entrywise sum of all-real arrays is all real. -/
theorem allReal_addf {x y : FVec Ideal s φ} (hx : AllReal x) (hy : AllReal y) : AllReal (addf x y) :=
  fun i => real_add (hx i) (hy i)

/-- The entrywise difference of all-real arrays is all real. -/
theorem allReal_subf {x y : FVec Ideal s φ} (hx : AllReal x) (hy : AllReal y) : AllReal (subf x y) :=
  fun i => real_sub (hx i) (hy i)

/-- The entrywise negation of an all-real array is all real. -/
theorem allReal_negf {x : FVec Ideal s φ} (hx : AllReal x) : AllReal (negf x) :=
  fun i => real_neg (hx i)

/-- The entrywise product of all-real arrays is all real. -/
theorem allReal_mulf {x y : FVec Ideal s φ} (hx : AllReal x) (hy : AllReal y) : AllReal (mulf x y) :=
  fun i => real_mul (hx i) (hy i)

/-- The entrywise maximum of all-real arrays is all real. -/
theorem allReal_maximumf {x y : FVec Ideal s φ} (hx : AllReal x) (hy : AllReal y) : AllReal (maximumf x y) :=
  fun i => real_max (hx i) (hy i)

/-- The entrywise minimum of all-real arrays is all real. -/
theorem allReal_minimumf {x y : FVec Ideal s φ} (hx : AllReal x) (hy : AllReal y) : AllReal (minimumf x y) :=
  fun i => real_min (hx i) (hy i)

/-! ### Changes of float format: the identity on extended reals -/

/-- Narrowing the format leaves an all-real array all real. -/
theorem allReal_truncf {ψ : FTy} {x : FVec Ideal s φ} (h : ψ.bits < φ.bits) (hx : AllReal x) :
    AllReal (truncf ψ x h : FVec Ideal s ψ) :=
  fun i => hx i

/-- Widening the format leaves an all-real array all real. -/
theorem allReal_extf {ψ : FTy} {x : FVec Ideal s φ} (h : φ.bits < ψ.bits) (hx : AllReal x) :
    AllReal (extf ψ x h : FVec Ideal s ψ) :=
  fun i => hx i

/-! ### Constants and broadcasts -/

/-- A constant array whose bit pattern denotes a real is all real. -/
theorem allReal_constant {b : BitVec φ.bits} (h : ∃ r : ℝ, Ideal.ofBits φ b = (r : EReal)) :
    AllReal (constant (F := Ideal) s φ b) :=
  fun _ => h

/-- The f32 zero constant is all real. -/
theorem allReal_constant_zero : AllReal (constant (F := Ideal) s .f32 0x00000000#32) :=
  allReal_constant ⟨0, ofBits_zero_f32_real⟩

/-- The f32 one constant is all real. -/
theorem allReal_constant_one : AllReal (constant (F := Ideal) s .f32 0x3F800000#32) :=
  allReal_constant ⟨1, ofBits_one_f32_real⟩

/-- The f32 one-half constant is all real. -/
theorem allReal_constant_half : AllReal (constant (F := Ideal) s .f32 0x3F000000#32) :=
  allReal_constant ⟨1 / 2, ofBits_half_f32_real⟩

/-- The broadcast of a real scalar is all real. -/
theorem allReal_broadcast {c : EReal} (h : ∃ r : ℝ, c = (r : EReal)) : AllReal (broadcast s c) :=
  fun _ => h

/-- The broadcast of the f32 zero scalar is all real. -/
theorem allReal_broadcast_zero : AllReal (broadcast s (Scalar.ofBits (F := Ideal) .f32 0x00000000#32)) :=
  allReal_broadcast ⟨0, ofBits_zero_f32_real⟩

/-- The broadcast of the f32 one scalar is all real. -/
theorem allReal_broadcast_one : AllReal (broadcast s (Scalar.ofBits (F := Ideal) .f32 0x3F800000#32)) :=
  allReal_broadcast ⟨1, ofBits_one_f32_real⟩

/-- The broadcast of the f32 one-half scalar is all real. -/
theorem allReal_broadcast_half : AllReal (broadcast s (Scalar.ofBits (F := Ideal) .f32 0x3F000000#32)) :=
  allReal_broadcast ⟨1 / 2, ofBits_half_f32_real⟩

/-! ### Re-indexings: each result entry is an entry of the operand -/

/-- A broadcast along trailing axes of an all-real array is all real. -/
theorem allReal_broadcastTo {x : s.Idx → EReal} (h : s.Broadcasts t) (hx : AllReal x) :
    AllReal (broadcastTo t x h) :=
  fun _ => hx _

/-- A broadcast in named dimensions of an all-real array is all real. -/
theorem allReal_broadcastInDim {x : s.Idx → EReal} {dims : Fin s.rank → Fin t.rank} (h : s.BroadcastsInDim t dims)
    (hx : AllReal x) : AllReal (broadcastInDim t dims h x) :=
  fun _ => hx _

/-- A shape cast of an all-real array is all real. -/
theorem allReal_shapeCast {x : s.Idx → EReal} (h : s.ShapeCasts t) (hx : AllReal x) : AllReal (shapeCast t x h) :=
  fun _ => hx _

/-- A slice of an all-real array is all real. -/
theorem allReal_extractStridedSlice {x : s.Idx → EReal} {off : Fin s.rank → Nat} (h : s.Slices off t)
    (hx : AllReal x) : AllReal (extractStridedSlice t off x h) :=
  fun _ => hx _

/-- A transpose of an all-real array is all real. -/
theorem allReal_transpose {x : s.Idx → EReal} {perm : List (Fin s.rank)} (h : s.Transposes perm t)
    (hx : AllReal x) : AllReal (transpose t perm x h) :=
  fun _ => hx _

/-- A gather from an all-real array is all real, whatever the indices: each result entry is an entry of the operand. -/
theorem allReal_gather {si : Shape} {w : Nat} (d : GatherDims s si t) {x : s.Idx → EReal} (idx : IVec si w)
    (hx : AllReal x) : AllReal (Host.gather d x idx) :=
  fun _ => hx _

/-! ### Accumulating scatter: an operand entry plus a finite sum of update entries -/

/-- An accumulating scatter of all-real updates into an all-real operand is all real, whatever the indices. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

/-! ### Sums along axes: an initial value plus a finite sum of entries -/

/-- A float sum along axes of an all-real array from a real initial value is all real. -/
theorem allReal_reduceAdd {axes : List (Fin s.rank)} {u : Shape} {x : FVec Ideal s φ} {init : u.Idx → Ideal φ}
    (h : s.ReducesTo axes t) (hu : 0 < u.numel) (hx : AllReal x) (hinit : ∀ i, ∃ r : ℝ, init i = (r : EReal)) :
    AllReal (Host.reduceAdd x init h hu) :=
  fun _ => real_add (hinit _) (real_sum _ _ fun i _ => hx i)

/-! ### Quotients -/

/-- The entrywise host quotient of an all-real array by reals that are not zero is all real. -/
theorem allReal_divf {x y : FVec Ideal s φ} (hx : AllReal x) (hy : ∀ i, ∃ r : ℝ, r ≠ 0 ∧ y i = (r : EReal)) :
    AllReal (Host.divf x y) :=
  fun i => real_div (hx i) (hy i)

/-- The entrywise host quotient of an all-real array by reals that are at least one is all real. -/
theorem allReal_divf_of_one_le {x y : FVec Ideal s φ} (hx : AllReal x)
    (hy : ∀ i, ∃ r : ℝ, 1 ≤ r ∧ y i = (r : EReal)) : AllReal (Host.divf x y) :=
  allReal_divf hx fun i => by
    obtain ⟨r, hr, h⟩ := hy i
    exact ⟨r, by linarith, h⟩

/-- The entrywise quotient of a kernel, likewise. -/
theorem allReal_divf_vec {x y : FVec Ideal s φ} (hx : AllReal x) (hy : ∀ i, ∃ r : ℝ, r ≠ 0 ∧ y i = (r : EReal)) :
    AllReal (divf x y) :=
  fun i => real_div (hx i) (hy i)

/-- The host quotient read at an entry where both operands are known reals. -/
theorem hostDivf_apply_coe {x y : FVec Ideal s φ} (i : s.Idx) {a r : ℝ} (hx : x i = (a : EReal))
    (hy : y i = (r : EReal)) (hr : r ≠ 0) : Host.divf x y i = ((a / r : ℝ) : EReal) := by
  show Ideal.div (x i) (y i) = _
  rw [hx, hy, div_coe_coe a hr]

/-! ### The maximum with the all-ones array: reals that are at least one -/

/-- The broadcast of the one constant has every entry one. -/
theorem ones_apply {s₀ : Shape} {dims : Fin s₀.rank → Fin t.rank} (h : s₀.BroadcastsInDim t dims) (j : t.Idx) :
    broadcastInDim t dims h (constant (F := Ideal) s₀ .f32 0x3F800000#32) j = 1 :=
  ofBits_one_f32

/-- The maximum of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [coe_max, EReal.coe_one]⟩

/-- The entrywise maximum of an all-real array with an array of ones has every entry a real that is at least one. -/
theorem maximumf_ones_ge_one {v ones : FVec Ideal s .f32} (hv : AllReal v) (hones : ∀ i, ones i = 1) :
    ∀ i, ∃ r : ℝ, 1 ≤ r ∧ maximumf v ones i = (r : EReal) := fun i => by
  show ∃ r : ℝ, 1 ≤ r ∧ max (v i) (ones i) = (r : EReal)
  rw [hones i]
  exact real_max_one (hv i)

/-- The same with the all-ones array written as the broadcast of the one constant. -/
theorem maximumf_bcast_one_ge_one {s₀ : Shape} {v : FVec Ideal t .f32} {dims : Fin s₀.rank → Fin t.rank}
    (h : s₀.BroadcastsInDim t dims) (hv : AllReal v) :
    ∀ i, ∃ r : ℝ, 1 ≤ r ∧
      maximumf v (broadcastInDim t dims h (constant (F := Ideal) s₀ .f32 0x3F800000#32)) i = (r : EReal) :=
  maximumf_ones_ge_one hv (ones_apply h)

/-- A re-indexing by a broadcast in named dimensions keeps "every entry a real that is at least one". -/
theorem one_le_broadcastInDim {x : s.Idx → EReal} {dims : Fin s.rank → Fin t.rank} (h : s.BroadcastsInDim t dims)
    (hx : ∀ i, ∃ r : ℝ, 1 ≤ r ∧ x i = (r : EReal)) :
    ∀ j, ∃ r : ℝ, 1 ≤ r ∧ broadcastInDim t dims h x j = (r : EReal) :=
  fun _ => hx _

/-! ### Contractions: an accumulator entry plus a finite sum of products -/

/-- A kernel's matrix product of all-real operands onto an all-real accumulator is all real. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) :=
  fun j => real_add (hacc j) (real_sum _ _ fun k _ => real_mul (hl _) (hr _))

/-- The host's general product of all-real operands is all real. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun j => real_add ⟨0, EReal.coe_zero.symm⟩ (real_sum _ _ fun k _ => real_mul (hl _) (hr _))

end Cert.Lib
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.LayerSpec.lean ====
/-
  One layer of a mean-aggregating graph convolution as a function of whole arrays, at the ideal values.

  A layer takes the aggregated neighbour features `a` and the node's own features `h` (both `[R, 64]`), two
  weight matrices `wl`, `wr` (`[64, D]`) and a bias `b` (`[D]`), and returns, at row `r` and column `j`,
      max ( Σ_k a(r,k)·wl(k,j)  +  b(j)  +  Σ_k h(r,k)·wr(k,j) , 0 ).
  Row `r` of the result depends on row `r` of `a` and of `h` only, so the layer computed on a block of rows is
  the block of the layer computed on all rows. Three readings of it are proved here:
  the body of a tiled kernel on a block of rows (two matrix products onto zero accumulators, the bias laid out
  as one row and repeated down the rows, a maximum with zero), the same operations of a host program on all rows
  (two general products, the bias broadcast in two steps), and the law joining the two ways of normalising the
  neighbour sum: multiplying by the reciprocal of the clipped degree or dividing by the clipped degree, which
  agree on every extended real because the clipped degree is a real number that is at least one.
-/
import proofs.«423088_j12189117186935_4_alg».proof.Proof.LibPlainDot
import proofs.«423088_j12189117186935_4_alg».proof.Proof.LibFinite
import proofs.«423088_j12189117186935_4_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Sage

open Idealize.ShloMosaic Idealize.ShloMosaic.ValueIdx
open scoped BigOperators

variable {R D : ℕ}

/-- Entry `(r, j)` of a layer. -/
def layerAt (a h : FVec Ideal ⟨2, ![R, 64]⟩ .f32) (wl : FVec Ideal ⟨2, ![64, D]⟩ .f32) (b : FVec Ideal ⟨1, ![D]⟩ .f32)
    (wr : FVec Ideal ⟨2, ![64, D]⟩ .f32) (r : Fin R) (j : Fin D) : EReal :=
  max ((∑ k : Fin 64, a (ix2 r k) * wl (ix2 k j)) + b (ix1 j) + ∑ k : Fin 64, h (ix2 r k) * wr (ix2 k j))
    (Ideal.ofBits .f32 0x00000000#32)

/-- The layer as an array. -/
def layer (a h : FVec Ideal ⟨2, ![R, 64]⟩ .f32) (wl : FVec Ideal ⟨2, ![64, D]⟩ .f32) (b : FVec Ideal ⟨1, ![D]⟩ .f32)
    (wr : FVec Ideal ⟨2, ![64, D]⟩ .f32) : FVec Ideal ⟨2, ![R, D]⟩ .f32 :=
  fun i => layerAt a h wl b wr (i 0) (i 1)

theorem layer_apply (a h : FVec Ideal ⟨2, ![R, 64]⟩ .f32) (wl : FVec Ideal ⟨2, ![64, D]⟩ .f32) (b : FVec Ideal ⟨1, ![D]⟩ .f32)
    (wr : FVec Ideal ⟨2, ![64, D]⟩ .f32) (r : Fin R) (j : Fin D) :
    layer a h wl b wr (ix2 r j) = layerAt a h wl b wr r j := rfl

/-- An entry of a layer on a block of rows is the entry of the layer on all rows, when the block's rows are rows
    of the whole arrays (row `r` of the block being row `r'` of the whole) and the weights and bias are the same. -/
theorem layerAt_of_rows {R' : ℕ} {a h : FVec Ideal ⟨2, ![R, 64]⟩ .f32} {a' h' : FVec Ideal ⟨2, ![R', 64]⟩ .f32}
    {wl wl' wr wr' : FVec Ideal ⟨2, ![64, D]⟩ .f32} {b b' : FVec Ideal ⟨1, ![D]⟩ .f32} {r : Fin R} {r' : Fin R'} (j : Fin D)
    (ha : ∀ k, a (ix2 r k) = a' (ix2 r' k)) (hh : ∀ k, h (ix2 r k) = h' (ix2 r' k))
    (hwl : wl = wl') (hb : b = b') (hwr : wr = wr') :
    layerAt a h wl b wr r j = layerAt a' h' wl' b' wr' r' j := by
  subst hwl hb hwr
  unfold layerAt
  simp only [ha, hh]

/-- THE KERNEL'S BODY on a block of rows, at an entry: the aggregated block multiplied into a
    zero accumulator, the bias cast to one row and repeated down the rows, the node block multiplied into a second
    zero accumulator, and the maximum with a splat zero. -/
theorem block_apply (hb : (⟨1, ![D]⟩ : Shape).ShapeCasts ⟨2, ![1, D]⟩)
    (ht : (⟨2, ![1, D]⟩ : Shape).Broadcasts ⟨2, ![R, D]⟩)
    (a h : FVec Ideal ⟨2, ![R, 64]⟩ .f32) (wl : FVec Ideal ⟨2, ![64, D]⟩ .f32) (b : FVec Ideal ⟨1, ![D]⟩ .f32)
    (wr : FVec Ideal ⟨2, ![64, D]⟩ .f32) (r : Fin R) (j : Fin D) :
    maximumf (addf (addf
        (matmul (DotDims.plain R 64 D) none a wl (constant (F := Ideal) ⟨2, ![R, D]⟩ .f32 0x00000000#32))
        (broadcastTo ⟨2, ![R, D]⟩ (shapeCast ⟨2, ![1, D]⟩ b hb) ht))
        (matmul (DotDims.plain R 64 D) none h wr (constant (F := Ideal) ⟨2, ![R, D]⟩ .f32 0x00000000#32)))
      (broadcast ⟨2, ![R, D]⟩ (Scalar.ofBits (F := Ideal) .f32 0x00000000#32)) (ix2 r j)
      = layerAt a h wl b wr r j := by
  rw [maximumf_apply, addf_apply, addf_apply]
  refine congrArg₂ max (congrArg₂ (· + ·) (congrArg₂ (· + ·) ?_ ?_) ?_) rfl
  · exact PlainDot.matmul_zero_apply none a wl r j
  · rw [broadcastTo_1b_ab_apply, shapeCast_a_1a_apply]
  · exact PlainDot.matmul_zero_apply none h wr r j

/-- THE HOST'S LAYER on all rows: two general products, the bias broadcast to one row and then down the rows, and the
    maximum with a broadcast zero. -/
theorem host_layer (hb1 : (⟨1, ![D]⟩ : Shape).BroadcastsInDim ⟨2, ![1, D]⟩ ![1])
    (hb2 : (⟨2, ![1, D]⟩ : Shape).BroadcastsInDim ⟨2, ![R, D]⟩ ![0, 1])
    (hz : (⟨0, ![]⟩ : Shape).BroadcastsInDim ⟨2, ![R, D]⟩ ![])
    (a h : FVec Ideal ⟨2, ![R, 64]⟩ .f32) (wl : FVec Ideal ⟨2, ![64, D]⟩ .f32) (b : FVec Ideal ⟨1, ![D]⟩ .f32)
    (wr : FVec Ideal ⟨2, ![64, D]⟩ .f32) :
    maximumf (addf (addf (Host.dotGeneral (DotDims.plain R 64 D) none a wl)
        (broadcastInDim ⟨2, ![R, D]⟩ ![0, 1] hb2 (broadcastInDim ⟨2, ![1, D]⟩ ![1] hb1 b)))
        (Host.dotGeneral (DotDims.plain R 64 D) none h wr))
      (broadcastInDim ⟨2, ![R, D]⟩ ![] hz (constant (F := Ideal) ⟨0, ![]⟩ .f32 0x00000000#32))
      = layer a h wl b wr := by
  funext i
  obtain ⟨r, j, rfl⟩ : ∃ (r : Fin R) (j : Fin D), i = ix2 r j := ⟨i 0, i 1, eq_ix2 i⟩
  rw [layer_apply, maximumf_apply, addf_apply, addf_apply]
  refine congrArg₂ max (congrArg₂ (· + ·) (congrArg₂ (· + ·) ?_ ?_) ?_) rfl
  · exact PlainDot.dotGeneral_apply none _ a wl r j
  · rw [broadcastInDim_apply ![0, 1] hb2 _ (ix2 r j) (ix2 (0 : Fin 1) j) (fun ax => by
        match ax with
        | ⟨0, _⟩ => rfl
        | ⟨1, _⟩ =>
          show j.val = if D = 1 then 0 else j.val
          split
          · have := j.isLt; omega
          · rfl),
      broadcastInDim_apply ![1] hb1 _ (ix2 (0 : Fin 1) j) (ix1 j) (fun ax => by
        match ax with
        | ⟨0, _⟩ =>
          show j.val = if D = 1 then 0 else j.val
          split
          · have := j.isLt; omega
          · rfl)]
  · exact PlainDot.dotGeneral_apply none _ h wr r j

/-! ## Normalising the neighbour sum -/

variable {N C : ℕ}

/-- A column `[N, 1]` broadcast along both named axes to `[N, C]` reads, at `(p, q)`, the column at `(p, 0)`. -/
theorem bcast_col_apply {α : Type} (v : (⟨2, ![N, 1]⟩ : Shape).Idx → α)
    (h : (⟨2, ![N, 1]⟩ : Shape).BroadcastsInDim ⟨2, ![N, C]⟩ ![0, 1]) (p : Fin N) (q : Fin C) :
    broadcastInDim ⟨2, ![N, C]⟩ ![0, 1] h v (ix2 p q) = v (ix2 p (0 : Fin 1)) :=
  broadcastInDim_apply ![0, 1] h v (ix2 p q) (ix2 p (0 : Fin 1)) fun ax => by
    match ax with
    | ⟨0, _⟩ =>
      show p.val = if N = 1 then 0 else p.val
      split
      · have := p.isLt; omega
      · rfl
    | ⟨1, _⟩ => rfl

/-- A vector `[N]` broadcast along its one axis to a column `[N, 1]` reads, at `(p, u)`, the vector at `p`. -/
theorem bcast_vec_col_apply {α : Type} (v : (⟨1, ![N]⟩ : Shape).Idx → α)
    (h : (⟨1, ![N]⟩ : Shape).BroadcastsInDim ⟨2, ![N, 1]⟩ ![0]) (p : Fin N) (u : Fin 1) :
    broadcastInDim ⟨2, ![N, 1]⟩ ![0] h v (ix2 p u) = v (ix1 p) :=
  broadcastInDim_apply ![0] h v (ix2 p u) (ix1 p) fun ax => by
    match ax with
    | ⟨0, _⟩ =>
      show p.val = if N = 1 then 0 else p.val
      split
      · have := p.isLt; omega
      · rfl

/-- The mean over the neighbours: the neighbour sum `S` divided, row by row, by the clipped degree `d`. -/
def meanOf (S : FVec Ideal ⟨2, ![N, C]⟩ .f32) (d : FVec Ideal ⟨1, ![N]⟩ .f32) : FVec Ideal ⟨2, ![N, C]⟩ .f32 :=
  fun i => Ideal.div (S i) (d (ix1 (i 0)))

/-- DIVIDING by the clipped degree repeated along the rows (the degree broadcast to a column, the column along the
    rows) is the mean. -/
theorem div_bcast_eq_mean (S : FVec Ideal ⟨2, ![N, C]⟩ .f32) (d : FVec Ideal ⟨1, ![N]⟩ .f32)
    (hb' : (⟨2, ![N, 1]⟩ : Shape).BroadcastsInDim ⟨2, ![N, C]⟩ ![0, 1])
    (hb0 : (⟨1, ![N]⟩ : Shape).BroadcastsInDim ⟨2, ![N, 1]⟩ ![0]) :
    Host.divf S (broadcastInDim ⟨2, ![N, C]⟩ ![0, 1] hb' (broadcastInDim ⟨2, ![N, 1]⟩ ![0] hb0 d)) = meanOf S d := by
  funext i
  obtain ⟨p, q, rfl⟩ : ∃ (p : Fin N) (q : Fin C), i = ix2 p q := ⟨i 0, i 1, eq_ix2 i⟩
  show Ideal.div (S (ix2 p q)) (broadcastInDim ⟨2, ![N, C]⟩ ![0, 1] hb' (broadcastInDim ⟨2, ![N, 1]⟩ ![0] hb0 d) (ix2 p q))
    = Ideal.div (S (ix2 p q)) (d (ix1 p))
  rw [bcast_col_apply, bcast_vec_col_apply]

/-- MULTIPLYING BY THE RECIPROCAL of the clipped degree (one over it, cast to a column, the column repeated along the
    rows) is the mean too, when the clipped degree's entries are reals that are at least one: a quotient by a nonzero
    real is the product with its reciprocal on EVERY extended real. -/
theorem mul_recip_eq_mean (S : FVec Ideal ⟨2, ![N, C]⟩ .f32) (d : FVec Ideal ⟨1, ![N]⟩ .f32)
    (hd : ∀ i, ∃ r : ℝ, 1 ≤ r ∧ d i = (r : EReal))
    (h1 : (⟨0, ![]⟩ : Shape).BroadcastsInDim ⟨1, ![N]⟩ ![]) (hc : (⟨1, ![N]⟩ : Shape).ShapeCasts ⟨2, ![N, 1]⟩)
    (hb : (⟨2, ![N, 1]⟩ : Shape).BroadcastsInDim ⟨2, ![N, C]⟩ ![0, 1]) :
    mulf S (broadcastInDim ⟨2, ![N, C]⟩ ![0, 1] hb
        (shapeCast ⟨2, ![N, 1]⟩ (Host.divf (broadcastInDim ⟨1, ![N]⟩ ![] h1 (constant (F := Ideal) ⟨0, ![]⟩ .f32 0x3F800000#32)) d) hc))
      = meanOf S d := by
  funext i
  obtain ⟨p, q, rfl⟩ : ∃ (p : Fin N) (q : Fin C), i = ix2 p q := ⟨i 0, i 1, eq_ix2 i⟩
  obtain ⟨r, hr, hdr⟩ := hd (ix1 p)
  have hr0 : r ≠ 0 := by linarith
  rw [mulf_apply, bcast_col_apply, Column.shapeCast_a_a1_apply]
  show S (ix2 p q) * Ideal.div (broadcastInDim ⟨1, ![N]⟩ ![] h1 (constant (F := Ideal) ⟨0, ![]⟩ .f32 0x3F800000#32) (ix1 p)) (d (ix1 p))
    = Ideal.div (S (ix2 p q)) (d (ix1 p))
  rw [Cert.Lib.ones_apply, hdr, Ideal.div_coe hr0, Ideal.div_coe hr0, one_mul]

/-! ## The network -/

/-- One convolution: the layer of the mean over the neighbours (`nbr h` the neighbour sum, `d` the clipped degree) and
    of the node's own features. -/
def sage (nbr : FVec Ideal ⟨2, ![100000, 64]⟩ .f32 → FVec Ideal ⟨2, ![100000, 64]⟩ .f32) (d : FVec Ideal ⟨1, ![100000]⟩ .f32)
    (h : FVec Ideal ⟨2, ![100000, 64]⟩ .f32) (wl : FVec Ideal ⟨2, ![64, D]⟩ .f32) (b : FVec Ideal ⟨1, ![D]⟩ .f32)
    (wr : FVec Ideal ⟨2, ![64, D]⟩ .f32) : FVec Ideal ⟨2, ![100000, D]⟩ .f32 :=
  layer (meanOf (nbr h) d) h wl b wr

/-- Five convolutions, the last onto seventeen columns. -/
def net (nbr : FVec Ideal ⟨2, ![100000, 64]⟩ .f32 → FVec Ideal ⟨2, ![100000, 64]⟩ .f32) (d : FVec Ideal ⟨1, ![100000]⟩ .f32)
    (x : FVec Ideal ⟨2, ![100000, 64]⟩ .f32)
    (wl1 : FVec Ideal ⟨2, ![64, 64]⟩ .f32) (b1 : FVec Ideal ⟨1, ![64]⟩ .f32) (wr1 : FVec Ideal ⟨2, ![64, 64]⟩ .f32)
    (wl2 : FVec Ideal ⟨2, ![64, 64]⟩ .f32) (b2 : FVec Ideal ⟨1, ![64]⟩ .f32) (wr2 : FVec Ideal ⟨2, ![64, 64]⟩ .f32)
    (wl3 : FVec Ideal ⟨2, ![64, 64]⟩ .f32) (b3 : FVec Ideal ⟨1, ![64]⟩ .f32) (wr3 : FVec Ideal ⟨2, ![64, 64]⟩ .f32)
    (wl4 : FVec Ideal ⟨2, ![64, 64]⟩ .f32) (b4 : FVec Ideal ⟨1, ![64]⟩ .f32) (wr4 : FVec Ideal ⟨2, ![64, 64]⟩ .f32)
    (wl5 : FVec Ideal ⟨2, ![64, 17]⟩ .f32) (b5 : FVec Ideal ⟨1, ![17]⟩ .f32) (wr5 : FVec Ideal ⟨2, ![64, 17]⟩ .f32) :
    FVec Ideal ⟨2, ![100000, 17]⟩ .f32 :=
  sage nbr d (sage nbr d (sage nbr d (sage nbr d (sage nbr d x wl1 b1 wr1) wl2 b2 wr2) wl3 b3 wr3) wl4 b4 wr4) wl5 b5 wr5

end Cert.Sage

end
-- ==== Proof.Region0.lean ====
/-
  Pallas call 0 of the five, at any contents `V` of the buffers when it is entered: its result array after its ten grid
  points is ONE layer (LayerSpec: `Cert.Sage.layer`) of the arrays it reads. Point `t` reads rows `10000·t … 10000·t + 9999`
  of the aggregated features and of the node features, the whole of both weight matrices and of the bias, and writes
  back the same rows of the result; a layer's row depends on the same row of its two feature operands only, so what a
  point writes back is the layer of the whole arrays read through the point's block, and the ten blocks tile the result.
-/
import proofs.«423088_j12189117186935_4_alg».proof.Proof.Gen.KernelIdeal.Frame
import proofs.«423088_j12189117186935_4_alg».proof.Proof.LayerSpec
import Idealize.ShloMosaic.Lib.Pipeline.Value
import Idealize.ShloMosaic.Lib.Tactic

set_option maxRecDepth 16384

noncomputable section

namespace Cert.KernelIdeal.Region0

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays the call reads, as it finds them, each at its literal type. -/
abbrev aggArr (c : Dev nD) : FVec Ideal S100000x64 .f32 := V c main_v24
abbrev nodeArr (c : Dev nD) : FVec Ideal S100000x64 .f32 := V c main_arg0
abbrev wlArr (c : Dev nD) : FVec Ideal S64x64 .f32 := V c main_arg2
abbrev biasArr (c : Dev nD) : FVec Ideal S64 .f32 := V c main_arg3
abbrev wrArr (c : Dev nD) : FVec Ideal S64x64 .f32 := V c main_arg4

/-- The layer of those arrays: what the result array ends holding. -/
abbrev result (c : Dev nD) : FVec Ideal S100000x64 .f32 :=
  layer (aggArr V c) (nodeArr V c) (wlArr V c) (biasArr V c) (wrArr V c)

/-- The printed index maps over the grid: the three row-blocked windows are at block row `t`, the weights and the bias
    at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of point `t`'s blocks is row `10000·t + r` of the arrays. -/
def rowOf (t : Fin cfg0.N) (r : Fin 10000) : Fin 100000 :=
  ⟨t.val * 10000 + r.val, by have := t.isLt; have hN : cfg0.N = 10 := N_0; have := r.isLt; omega⟩

/-- The aggregated-features block at point `t`. -/
theorem agg_blk (c : Dev nD) (t : Fin cfg0.N) (r : Fin 10000) (k : Fin 64) :
    (iblk0 V c 0 t : Vec Ideal S10000x64 .f32) (ix2 r k) = aggArr V c (ix2 (rowOf t r) k) := by
  obtain ⟨e0, e1, -⟩ := idx_facts t
  unfold iblk0
  rw [View.read_apply]
  show V c main_v24 _ = V c main_v24 _
  refine congrArg _ (funext fun a => Fin.ext ?_)
  match a with
  | ⟨0, _⟩ => show win0_0.index t (0 : Fin 2) * 10000 + 1 * r.val = t.val * 10000 + r.val; rw [e0]; omega
  | ⟨1, _⟩ => show win0_0.index t (1 : Fin 2) * 64 + 1 * k.val = k.val; rw [e1]; omega

/-- The node-features block at point `t`. -/
theorem node_blk (c : Dev nD) (t : Fin cfg0.N) (r : Fin 10000) (k : Fin 64) :
    (iblk0 V c 1 t : Vec Ideal S10000x64 .f32) (ix2 r k) = nodeArr V c (ix2 (rowOf t r) k) := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t (0 : Fin 2) * 10000 + 1 * r.val = t.val * 10000 + r.val; rw [e0]; omega
  | ⟨1, _⟩ => show win0_1.index t (1 : Fin 2) * 64 + 1 * k.val = k.val; rw [e1]; omega

/-- The left weights' one block is the whole matrix. -/
theorem wl_blk (c : Dev nD) (t : Fin cfg0.N) : (iblk0 V c 2 t : Vec Ideal S64x64 .f32) = wlArr V c := by
  obtain ⟨-, -, -, -, e0, e1, -⟩ := idx_facts t
  funext y
  unfold iblk0
  rw [View.read_apply]
  show V c main_arg2 _ = V c main_arg2 _
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The bias' one block is the whole vector. -/
theorem bias_blk (c : Dev nD) (t : Fin cfg0.N) : (iblk0 V c 3 t : Vec Ideal S64 .f32) = biasArr V c := by
  obtain ⟨-, -, -, -, -, -, e0, -⟩ := idx_facts t
  funext y
  unfold iblk0
  rw [View.read_apply]
  show V c main_arg3 _ = V c main_arg3 _
  refine congrArg _ (funext fun a => Fin.ext ?_)
  match a with
  | ⟨0, _⟩ => show win0_3.index t (0 : Fin 1) * 64 + 1 * (y 0).val = (y 0).val; rw [e0]; omega

/-- The right weights' one block is the whole matrix. -/
theorem wr_blk (c : Dev nD) (t : Fin cfg0.N) : (iblk0 V c 4 t : Vec Ideal S64x64 .f32) = wrArr V c := by
  obtain ⟨-, -, -, -, -, -, -, e0, e1, -⟩ := idx_facts t
  funext y
  unfold iblk0
  rw [View.read_apply]
  show V c main_arg4 _ = V c main_arg4 _
  refine congrArg _ (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The body's one store, at an entry of the block, from any five loaded blocks: the layer's entry on the block. -/
theorem body_apply (x0 x1 : Vec Ideal S10000x64 .f32) (x2 : Vec Ideal S64x64 .f32) (x3 : Vec Ideal S64 .f32)
    (x4 : Vec Ideal S64x64 .f32) (r : Fin 10000) (j : Fin 64) :
    out0_5 x0 x1 x2 x3 x4 (ix2 r j) = layerAt (R := 10000) (D := 64) x0 x1 x2 x3 x4 r j := by
  unfold out0_5
  rw [View.canon_unit_zero hz2]
  simp only [View.ld_unit_zero (S := S10000x64) hz2, View.ld_unit_zero (S := S64x64) hz2, View.ld_unit_zero (S := S64) hz1]
  unfold k0_pay1
  simp only [shapeCast_self]
  exact block_apply (R := 10000) (D := 64) _ _ x0 x1 x2 x3 x4 r j

/-- WHAT POINT `t` WRITES BACK is block `t` of the layer of the arrays as the call finds them. -/
theorem flushed_eq (c : Dev nD) (t : Fin cfg0.N) :
    (dat0 (F := Ideal) V c).flushed 5 t = ((cfg0.win 5).blk t).view.read (Elt Ideal) (result V c) := by
  obtain ⟨-, -, -, -, -, -, -, -, -, e0, e1⟩ := idx_facts t
  show (cfg0.win 5).cut (grid0.coords t) ((dat0 V c).after 5 t) = _
  rw [after0_5]
  funext y
  obtain ⟨r, j, rfl⟩ : ∃ (r : Fin 10000) (j : Fin 64), y = ix2 r j := ⟨y 0, y 1, eq_ix2 y⟩
  rw [View.read_apply]
  have he : ((cfg0.win 5).blk t).view.emb (ix2 r j) = (ix2 (rowOf t r) j : S100000x64.Idx) := by
    funext a
    apply Fin.ext
    match a with
    | ⟨0, _⟩ => show win0_5.index t (0 : Fin 2) * 10000 + 1 * r.val = t.val * 10000 + r.val; rw [e0]; omega
    | ⟨1, _⟩ => show win0_5.index t (1 : Fin 2) * 64 + 1 * j.val = j.val; rw [e1]; omega
  rw [he]
  show out0_5 (iblk0 V c 0 t) (iblk0 V c 1 t) (iblk0 V c 2 t) (iblk0 V c 3 t) (iblk0 V c 4 t) (ix2 r j)
    = layerAt (aggArr V c) (nodeArr V c) (wlArr V c) (biasArr V c) (wrArr V c) (rowOf t r) j
  refine (body_apply (iblk0 V c 0 t) (iblk0 V c 1 t) (iblk0 V c 2 t) (iblk0 V c 3 t) (iblk0 V c 4 t) r j).trans ?_
  exact layerAt_of_rows j (fun k => agg_blk V c t r k) (fun k => node_blk V c t r k) (wl_blk V c t) (bias_blk V c t) (wr_blk V c t)

/-- An index of the result array is in point `t`'s block iff its row is among the block's ten thousand. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v25).slice (win0_5.rect t)).set ↔ _
  rw [View.set_slice_whole, Rect.mem_set_unit]
  exact Iff.rfl

/-- THE RESULT ARRAY after the call's ten points is the layer of the arrays it read: the ten row blocks tile it. -/
theorem final (c : Dev nD) : (dat0 (F := Ideal) V c).arrAt 5 cfg0.N = result V c :=
  (dat0 (F := Ideal) V c).arrAt_eq_of_cover 5 (result V c) (fun t _ => flushed_eq V c t) fun i => by
    have hi0 : (i 0).val < 100000 := (i 0).isLt
    have hi1 : (i 1).val < 64 := (i 1).isLt
    have hN : cfg0.N = 10 := N_0
    let t : Fin cfg0.N := ⟨(i 0).val / 10000, by omega⟩
    obtain ⟨-, -, -, -, -, -, -, -, -, e0, e1⟩ := idx_facts t
    refine ⟨t, flush0_5 t, ?_⟩
    rw [mem_blk]
    intro a
    match a with
    | ⟨0, _⟩ =>
      show win0_5.index t (0 : Fin 2) * 10000 ≤ (i 0).val ∧ (i 0).val < win0_5.index t (0 : Fin 2) * 10000 + 10000
      rw [e0]; show (i 0).val / 10000 * 10000 ≤ (i 0).val ∧ (i 0).val < (i 0).val / 10000 * 10000 + 10000; omega
    | ⟨1, _⟩ =>
      show win0_5.index t (1 : Fin 2) * 64 ≤ (i 1).val ∧ (i 1).val < win0_5.index t (1 : Fin 2) * 64 + 64
      rw [e1]; omega

end Cert.KernelIdeal.Region0

end
-- ==== Proof.Region1.lean ====
/-
  Pallas call 1 of the five, at any contents `V` of the buffers when it is entered: its result array after its ten grid
  points is ONE layer (LayerSpec: `Cert.Sage.layer`) of the arrays it reads. Point `t` reads rows `10000·t … 10000·t + 9999`
  of the aggregated features and of the node features, the whole of both weight matrices and of the bias, and writes
  back the same rows of the result; a layer's row depends on the same row of its two feature operands only, so what a
  point writes back is the layer of the whole arrays read through the point's block, and the ten blocks tile the result.
-/
import proofs.«423088_j12189117186935_4_alg».proof.Proof.Gen.KernelIdeal.Frame
import proofs.«423088_j12189117186935_4_alg».proof.Proof.LayerSpec
import Idealize.ShloMosaic.Lib.Pipeline.Value
import Idealize.ShloMosaic.Lib.Tactic

set_option maxRecDepth 16384

noncomputable section

namespace Cert.KernelIdeal.Region1

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays the call reads, as it finds them, each at its literal type. -/
abbrev aggArr (c : Dev nD) : FVec Ideal S100000x64 .f32 := V c main_v37
abbrev nodeArr (c : Dev nD) : FVec Ideal S100000x64 .f32 := V c main_v25
abbrev wlArr (c : Dev nD) : FVec Ideal S64x64 .f32 := V c main_arg5
abbrev biasArr (c : Dev nD) : FVec Ideal S64 .f32 := V c main_arg6
abbrev wrArr (c : Dev nD) : FVec Ideal S64x64 .f32 := V c main_arg7

/-- The layer of those arrays: what the result array ends holding. -/
abbrev result (c : Dev nD) : FVec Ideal S100000x64 .f32 :=
  layer (aggArr V c) (nodeArr V c) (wlArr V c) (biasArr V c) (wrArr V c)

/-- The printed index maps over the grid: the three row-blocked windows are at block row `t`, the weights and the bias
    at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of point `t`'s blocks is row `10000·t + r` of the arrays. -/
def rowOf (t : Fin cfg1.N) (r : Fin 10000) : Fin 100000 :=
  ⟨t.val * 10000 + r.val, by have := t.isLt; have hN : cfg1.N = 10 := N_1; have := r.isLt; omega⟩

/-- The aggregated-features block at point `t`. -/
theorem agg_blk (c : Dev nD) (t : Fin cfg1.N) (r : Fin 10000) (k : Fin 64) :
    (iblk1 V c 0 t : Vec Ideal S10000x64 .f32) (ix2 r k) = aggArr V c (ix2 (rowOf t r) k) := by
  obtain ⟨e0, e1, -⟩ := idx_facts t
  unfold iblk1
  rw [View.read_apply]
  show V c main_v37 _ = V c main_v37 _
  refine congrArg _ (funext fun a => Fin.ext ?_)
  match a with
  | ⟨0, _⟩ => show win1_0.index t (0 : Fin 2) * 10000 + 1 * r.val = t.val * 10000 + r.val; rw [e0]; omega
  | ⟨1, _⟩ => show win1_0.index t (1 : Fin 2) * 64 + 1 * k.val = k.val; rw [e1]; omega

/-- The node-features block at point `t`. -/
theorem node_blk (c : Dev nD) (t : Fin cfg1.N) (r : Fin 10000) (k : Fin 64) :
    (iblk1 V c 1 t : Vec Ideal S10000x64 .f32) (ix2 r k) = nodeArr V c (ix2 (rowOf t r) k) := by
  obtain ⟨-, -, e0, e1, -⟩ := idx_facts t
  unfold iblk1
  rw [View.read_apply]
  show V c main_v25 _ = V c main_v25 _
  refine congrArg _ (funext fun a => Fin.ext ?_)
  match a with
  | ⟨0, _⟩ => show win1_1.index t (0 : Fin 2) * 10000 + 1 * r.val = t.val * 10000 + r.val; rw [e0]; omega
  | ⟨1, _⟩ => show win1_1.index t (1 : Fin 2) * 64 + 1 * k.val = k.val; rw [e1]; omega

/-- The left weights' one block is the whole matrix. -/
theorem wl_blk (c : Dev nD) (t : Fin cfg1.N) : (iblk1 V c 2 t : Vec Ideal S64x64 .f32) = wlArr V c := by
  obtain ⟨-, -, -, -, e0, e1, -⟩ := idx_facts t
  funext y
  unfold iblk1
  rw [View.read_apply]
  show V c main_arg5 _ = V c main_arg5 _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias' one block is the whole vector. -/
theorem bias_blk (c : Dev nD) (t : Fin cfg1.N) : (iblk1 V c 3 t : Vec Ideal S64 .f32) = biasArr V c := by
  obtain ⟨-, -, -, -, -, -, e0, -⟩ := idx_facts t
  funext y
  unfold iblk1
  rw [View.read_apply]
  show V c main_arg6 _ = V c main_arg6 _
  refine congrArg _ (funext fun a => Fin.ext ?_)
  match a with
  | ⟨0, _⟩ => show win1_3.index t (0 : Fin 1) * 64 + 1 * (y 0).val = (y 0).val; rw [e0]; omega

/-- The right weights' one block is the whole matrix. -/
theorem wr_blk (c : Dev nD) (t : Fin cfg1.N) : (iblk1 V c 4 t : Vec Ideal S64x64 .f32) = wrArr V c := by
  obtain ⟨-, -, -, -, -, -, -, e0, e1, -⟩ := idx_facts t
  funext y
  unfold iblk1
  rw [View.read_apply]
  show V c main_arg7 _ = V c main_arg7 _
  refine congrArg _ (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The body's one store, at an entry of the block, from any five loaded blocks: the layer's entry on the block. -/
theorem body_apply (x0 x1 : Vec Ideal S10000x64 .f32) (x2 : Vec Ideal S64x64 .f32) (x3 : Vec Ideal S64 .f32)
    (x4 : Vec Ideal S64x64 .f32) (r : Fin 10000) (j : Fin 64) :
    out1_5 x0 x1 x2 x3 x4 (ix2 r j) = layerAt (R := 10000) (D := 64) x0 x1 x2 x3 x4 r j := by
  unfold out1_5
  rw [View.canon_unit_zero hz2]
  simp only [View.ld_unit_zero (S := S10000x64) hz2, View.ld_unit_zero (S := S64x64) hz2, View.ld_unit_zero (S := S64) hz1]
  unfold k1_pay1
  simp only [shapeCast_self]
  exact block_apply (R := 10000) (D := 64) _ _ x0 x1 x2 x3 x4 r j

/-- WHAT POINT `t` WRITES BACK is block `t` of the layer of the arrays as the call finds them. -/
theorem flushed_eq (c : Dev nD) (t : Fin cfg1.N) :
    (dat1 (F := Ideal) V c).flushed 5 t = ((cfg1.win 5).blk t).view.read (Elt Ideal) (result V c) := by
  obtain ⟨-, -, -, -, -, -, -, -, -, e0, e1⟩ := idx_facts t
  show (cfg1.win 5).cut (grid1.coords t) ((dat1 V c).after 5 t) = _
  rw [after1_5]
  funext y
  obtain ⟨r, j, rfl⟩ : ∃ (r : Fin 10000) (j : Fin 64), y = ix2 r j := ⟨y 0, y 1, eq_ix2 y⟩
  rw [View.read_apply]
  have he : ((cfg1.win 5).blk t).view.emb (ix2 r j) = (ix2 (rowOf t r) j : S100000x64.Idx) := by
    funext a
    apply Fin.ext
    match a with
    | ⟨0, _⟩ => show win1_5.index t (0 : Fin 2) * 10000 + 1 * r.val = t.val * 10000 + r.val; rw [e0]; omega
    | ⟨1, _⟩ => show win1_5.index t (1 : Fin 2) * 64 + 1 * j.val = j.val; rw [e1]; omega
  rw [he]
  show out1_5 (iblk1 V c 0 t) (iblk1 V c 1 t) (iblk1 V c 2 t) (iblk1 V c 3 t) (iblk1 V c 4 t) (ix2 r j)
    = layerAt (aggArr V c) (nodeArr V c) (wlArr V c) (biasArr V c) (wrArr V c) (rowOf t r) j
  refine (body_apply (iblk1 V c 0 t) (iblk1 V c 1 t) (iblk1 V c 2 t) (iblk1 V c 3 t) (iblk1 V c 4 t) r j).trans ?_
  exact layerAt_of_rows j (fun k => agg_blk V c t r k) (fun k => node_blk V c t r k) (wl_blk V c t) (bias_blk V c t) (wr_blk V c t)

/-- An index of the result array is in point `t`'s block iff its row is among the block's ten thousand. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v38).slice (win1_5.rect t)).set ↔ _
  rw [View.set_slice_whole, Rect.mem_set_unit]
  exact Iff.rfl

/-- THE RESULT ARRAY after the call's ten points is the layer of the arrays it read: the ten row blocks tile it. -/
theorem final (c : Dev nD) : (dat1 (F := Ideal) V c).arrAt 5 cfg1.N = result V c :=
  (dat1 (F := Ideal) V c).arrAt_eq_of_cover 5 (result V c) (fun t _ => flushed_eq V c t) fun i => by
    have hi0 : (i 0).val < 100000 := (i 0).isLt
    have hi1 : (i 1).val < 64 := (i 1).isLt
    have hN : cfg1.N = 10 := N_1
    let t : Fin cfg1.N := ⟨(i 0).val / 10000, by omega⟩
    obtain ⟨-, -, -, -, -, -, -, -, -, e0, e1⟩ := idx_facts t
    refine ⟨t, flush1_5 t, ?_⟩
    rw [mem_blk]
    intro a
    match a with
    | ⟨0, _⟩ =>
      show win1_5.index t (0 : Fin 2) * 10000 ≤ (i 0).val ∧ (i 0).val < win1_5.index t (0 : Fin 2) * 10000 + 10000
      rw [e0]; show (i 0).val / 10000 * 10000 ≤ (i 0).val ∧ (i 0).val < (i 0).val / 10000 * 10000 + 10000; omega
    | ⟨1, _⟩ =>
      show win1_5.index t (1 : Fin 2) * 64 ≤ (i 1).val ∧ (i 1).val < win1_5.index t (1 : Fin 2) * 64 + 64
      rw [e1]; omega

end Cert.KernelIdeal.Region1

end
-- ==== Proof.Region2.lean ====
/-
  Pallas call 2 of the five, at any contents `V` of the buffers when it is entered: its result array after its ten grid
  points is ONE layer (LayerSpec: `Cert.Sage.layer`) of the arrays it reads. Point `t` reads rows `10000·t … 10000·t + 9999`
  of the aggregated features and of the node features, the whole of both weight matrices and of the bias, and writes
  back the same rows of the result; a layer's row depends on the same row of its two feature operands only, so what a
  point writes back is the layer of the whole arrays read through the point's block, and the ten blocks tile the result.
-/
import proofs.«423088_j12189117186935_4_alg».proof.Proof.Gen.KernelIdeal.Frame
import proofs.«423088_j12189117186935_4_alg».proof.Proof.LayerSpec
import Idealize.ShloMosaic.Lib.Pipeline.Value
import Idealize.ShloMosaic.Lib.Tactic

set_option maxRecDepth 16384

noncomputable section

namespace Cert.KernelIdeal.Region2

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays the call reads, as it finds them, each at its literal type. -/
abbrev aggArr (c : Dev nD) : FVec Ideal S100000x64 .f32 := V c main_v50
abbrev nodeArr (c : Dev nD) : FVec Ideal S100000x64 .f32 := V c main_v38
abbrev wlArr (c : Dev nD) : FVec Ideal S64x64 .f32 := V c main_arg8
abbrev biasArr (c : Dev nD) : FVec Ideal S64 .f32 := V c main_arg9
abbrev wrArr (c : Dev nD) : FVec Ideal S64x64 .f32 := V c main_arg10

/-- The layer of those arrays: what the result array ends holding. -/
abbrev result (c : Dev nD) : FVec Ideal S100000x64 .f32 :=
  layer (aggArr V c) (nodeArr V c) (wlArr V c) (biasArr V c) (wrArr V c)

/-- The printed index maps over the grid: the three row-blocked windows are at block row `t`, the weights and the bias
    at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of point `t`'s blocks is row `10000·t + r` of the arrays. -/
def rowOf (t : Fin cfg2.N) (r : Fin 10000) : Fin 100000 :=
  ⟨t.val * 10000 + r.val, by have := t.isLt; have hN : cfg2.N = 10 := N_2; have := r.isLt; omega⟩

/-- The aggregated-features block at point `t`. -/
theorem agg_blk (c : Dev nD) (t : Fin cfg2.N) (r : Fin 10000) (k : Fin 64) :
    (iblk2 V c 0 t : Vec Ideal S10000x64 .f32) (ix2 r k) = aggArr V c (ix2 (rowOf t r) k) := by
  obtain ⟨e0, e1, -⟩ := idx_facts t
  unfold iblk2
  rw [View.read_apply]
  show V c main_v50 _ = V c main_v50 _
  refine congrArg _ (funext fun a => Fin.ext ?_)
  match a with
  | ⟨0, _⟩ => show win2_0.index t (0 : Fin 2) * 10000 + 1 * r.val = t.val * 10000 + r.val; rw [e0]; omega
  | ⟨1, _⟩ => show win2_0.index t (1 : Fin 2) * 64 + 1 * k.val = k.val; rw [e1]; omega

/-- The node-features block at point `t`. -/
theorem node_blk (c : Dev nD) (t : Fin cfg2.N) (r : Fin 10000) (k : Fin 64) :
    (iblk2 V c 1 t : Vec Ideal S10000x64 .f32) (ix2 r k) = nodeArr V c (ix2 (rowOf t r) k) := by
  obtain ⟨-, -, e0, e1, -⟩ := idx_facts t
  unfold iblk2
  rw [View.read_apply]
  show V c main_v38 _ = V c main_v38 _
  refine congrArg _ (funext fun a => Fin.ext ?_)
  match a with
  | ⟨0, _⟩ => show win2_1.index t (0 : Fin 2) * 10000 + 1 * r.val = t.val * 10000 + r.val; rw [e0]; omega
  | ⟨1, _⟩ => show win2_1.index t (1 : Fin 2) * 64 + 1 * k.val = k.val; rw [e1]; omega

/-- The left weights' one block is the whole matrix. -/
theorem wl_blk (c : Dev nD) (t : Fin cfg2.N) : (iblk2 V c 2 t : Vec Ideal S64x64 .f32) = wlArr V c := by
  obtain ⟨-, -, -, -, e0, e1, -⟩ := idx_facts t
  funext y
  unfold iblk2
  rw [View.read_apply]
  show V c main_arg8 _ = V c main_arg8 _
  refine congrArg _ (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The bias' one block is the whole vector. -/
theorem bias_blk (c : Dev nD) (t : Fin cfg2.N) : (iblk2 V c 3 t : Vec Ideal S64 .f32) = biasArr V c := by
  obtain ⟨-, -, -, -, -, -, e0, -⟩ := idx_facts t
  funext y
  unfold iblk2
  rw [View.read_apply]
  show V c main_arg9 _ = V c main_arg9 _
  refine congrArg _ (funext fun a => Fin.ext ?_)
  match a with
  | ⟨0, _⟩ => show win2_3.index t (0 : Fin 1) * 64 + 1 * (y 0).val = (y 0).val; rw [e0]; omega

/-- The right weights' one block is the whole matrix. -/
theorem wr_blk (c : Dev nD) (t : Fin cfg2.N) : (iblk2 V c 4 t : Vec Ideal S64x64 .f32) = wrArr V c := by
  obtain ⟨-, -, -, -, -, -, -, e0, e1, -⟩ := idx_facts t
  funext y
  unfold iblk2
  rw [View.read_apply]
  show V c main_arg10 _ = V c main_arg10 _
  refine congrArg _ (funext fun a => Fin.ext ?_)
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- The body's one store, at an entry of the block, from any five loaded blocks: the layer's entry on the block. -/
theorem body_apply (x0 x1 : Vec Ideal S10000x64 .f32) (x2 : Vec Ideal S64x64 .f32) (x3 : Vec Ideal S64 .f32)
    (x4 : Vec Ideal S64x64 .f32) (r : Fin 10000) (j : Fin 64) :
    out2_5 x0 x1 x2 x3 x4 (ix2 r j) = layerAt (R := 10000) (D := 64) x0 x1 x2 x3 x4 r j := by
  unfold out2_5
  rw [View.canon_unit_zero hz2]
  simp only [View.ld_unit_zero (S := S10000x64) hz2, View.ld_unit_zero (S := S64x64) hz2, View.ld_unit_zero (S := S64) hz1]
  unfold k2_pay1
  simp only [shapeCast_self]
  exact block_apply (R := 10000) (D := 64) _ _ x0 x1 x2 x3 x4 r j

/-- WHAT POINT `t` WRITES BACK is block `t` of the layer of the arrays as the call finds them. -/
theorem flushed_eq (c : Dev nD) (t : Fin cfg2.N) :
    (dat2 (F := Ideal) V c).flushed 5 t = ((cfg2.win 5).blk t).view.read (Elt Ideal) (result V c) := by
  obtain ⟨-, -, -, -, -, -, -, -, -, e0, e1⟩ := idx_facts t
  show (cfg2.win 5).cut (grid2.coords t) ((dat2 V c).after 5 t) = _
  rw [after2_5]
  funext y
  obtain ⟨r, j, rfl⟩ : ∃ (r : Fin 10000) (j : Fin 64), y = ix2 r j := ⟨y 0, y 1, eq_ix2 y⟩
  rw [View.read_apply]
  have he : ((cfg2.win 5).blk t).view.emb (ix2 r j) = (ix2 (rowOf t r) j : S100000x64.Idx) := by
    funext a
    apply Fin.ext
    match a with
    | ⟨0, _⟩ => show win2_5.index t (0 : Fin 2) * 10000 + 1 * r.val = t.val * 10000 + r.val; rw [e0]; omega
    | ⟨1, _⟩ => show win2_5.index t (1 : Fin 2) * 64 + 1 * j.val = j.val; rw [e1]; omega
  rw [he]
  show out2_5 (iblk2 V c 0 t) (iblk2 V c 1 t) (iblk2 V c 2 t) (iblk2 V c 3 t) (iblk2 V c 4 t) (ix2 r j)
    = layerAt (aggArr V c) (nodeArr V c) (wlArr V c) (biasArr V c) (wrArr V c) (rowOf t r) j
  refine (body_apply (iblk2 V c 0 t) (iblk2 V c 1 t) (iblk2 V c 2 t) (iblk2 V c 3 t) (iblk2 V c 4 t) r j).trans ?_
  exact layerAt_of_rows j (fun k => agg_blk V c t r k) (fun k => node_blk V c t r k) (wl_blk V c t) (bias_blk V c t) (wr_blk V c t)

/-- An index of the result array is in point `t`'s block iff its row is among the block's ten thousand. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v51).slice (win2_5.rect t)).set ↔ _
  rw [View.set_slice_whole, Rect.mem_set_unit]
  exact Iff.rfl

/-- THE RESULT ARRAY after the call's ten points is the layer of the arrays it read: the ten row blocks tile it. -/
theorem final (c : Dev nD) : (dat2 (F := Ideal) V c).arrAt 5 cfg2.N = result V c :=
  (dat2 (F := Ideal) V c).arrAt_eq_of_cover 5 (result V c) (fun t _ => flushed_eq V c t) fun i => by
    have hi0 : (i 0).val < 100000 := (i 0).isLt
    have hi1 : (i 1).val < 64 := (i 1).isLt
    have hN : cfg2.N = 10 := N_2
    let t : Fin cfg2.N := ⟨(i 0).val / 10000, by omega⟩
    obtain ⟨-, -, -, -, -, -, -, -, -, e0, e1⟩ := idx_facts t
    refine ⟨t, flush2_5 t, ?_⟩
    rw [mem_blk]
    intro a
    match a with
    | ⟨0, _⟩ =>
      show win2_5.index t (0 : Fin 2) * 10000 ≤ (i 0).val ∧ (i 0).val < win2_5.index t (0 : Fin 2) * 10000 + 10000
      rw [e0]; show (i 0).val / 10000 * 10000 ≤ (i 0).val ∧ (i 0).val < (i 0).val / 10000 * 10000 + 10000; omega
    | ⟨1, _⟩ =>
      show win2_5.index t (1 : Fin 2) * 64 ≤ (i 1).val ∧ (i 1).val < win2_5.index t (1 : Fin 2) * 64 + 64
      rw [e1]; omega

end Cert.KernelIdeal.Region2

end
-- ==== Proof.Region3.lean ====
/-
  Pallas call 3 of the five, at any contents `V` of the buffers when it is entered: its result array after its ten grid
  points is ONE layer (LayerSpec: `Cert.Sage.layer`) of the arrays it reads. Point `t` reads rows `10000·t … 10000·t + 9999`
  of the aggregated features and of the node features, the whole of both weight matrices and of the bias, and writes
  back the same rows of the result; a layer's row depends on the same row of its two feature operands only, so what a
  point writes back is the layer of the whole arrays read through the point's block, and the ten blocks tile the result.
-/
import proofs.«423088_j12189117186935_4_alg».proof.Proof.Gen.KernelIdeal.Frame
import proofs.«423088_j12189117186935_4_alg».proof.Proof.LayerSpec
import Idealize.ShloMosaic.Lib.Pipeline.Value
import Idealize.ShloMosaic.Lib.Tactic

set_option maxRecDepth 16384

noncomputable section

namespace Cert.KernelIdeal.Region3

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays the call reads, as it finds them, each at its literal type. -/
abbrev aggArr (c : Dev nD) : FVec Ideal S100000x64 .f32 := V c main_v63
abbrev nodeArr (c : Dev nD) : FVec Ideal S100000x64 .f32 := V c main_v51
abbrev wlArr (c : Dev nD) : FVec Ideal S64x64 .f32 := V c main_arg11
abbrev biasArr (c : Dev nD) : FVec Ideal S64 .f32 := V c main_arg12
abbrev wrArr (c : Dev nD) : FVec Ideal S64x64 .f32 := V c main_arg13

/-- The layer of those arrays: what the result array ends holding. -/
abbrev result (c : Dev nD) : FVec Ideal S100000x64 .f32 :=
  layer (aggArr V c) (nodeArr V c) (wlArr V c) (biasArr V c) (wrArr V c)

/-- The printed index maps over the grid: the three row-blocked windows are at block row `t`, the weights and the bias
    at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `r` of point `t`'s blocks is row `10000·t + r` of the arrays. -/
def rowOf (t : Fin cfg3.N) (r : Fin 10000) : Fin 100000 :=
  ⟨t.val * 10000 + r.val, by have := t.isLt; have hN : cfg3.N = 10 := N_3; have := r.isLt; omega⟩

/-- The aggregated-features block at point `t`. -/
theorem agg_blk (c : Dev nD) (t : Fin cfg3.N) (r : Fin 10000) (k : Fin 64) :
    (iblk3 V c 0 t : Vec Ideal S10000x64 .f32) (ix2 r k) = aggArr V c (ix2 (rowOf t r) k) := by
  obtain ⟨e0, e1, -⟩ := idx_facts t
  unfold iblk3
  rw [View.read_apply]
  show V c main_v63 _ = V c main_v63 _
  refine congrArg _ (funext fun a => Fin.ext ?_)
  match a with
  | ⟨0, _⟩ => show win3_0.index t (0 : Fin 2) * 10000 + 1 * r.val = t.val * 10000 + r.val; rw [e0]; omega
  | ⟨1, _⟩ => show win3_0.index t (1 : Fin 2) * 64 + 1 * k.val = k.val; rw [e1]; omega

/-- The node-features block at point `t`. -/
theorem node_blk (c : Dev nD) (t : Fin cfg3.N) (r : Fin 10000) (k : Fin 64) :
    (iblk3 V c 1 t : Vec Ideal S10000x64 .f32) (ix2 r k) = nodeArr V c (ix2 (rowOf t r) k) := by
  obtain ⟨-, -, e0, e1, -⟩ := idx_facts t
  unfold iblk3
  rw [View.read_apply]
  show V c main_v51 _ = V c main_v51 _
  refine congrArg _ (funext fun a => Fin.ext ?_)
  match a with
  | ⟨0, _⟩ => show win3_1.index t (0 : Fin 2) * 10000 + 1 * r.val = t.val * 10000 + r.val; rw [e0]; omega
  | ⟨1, _⟩ => show win3_1.index t (1 : Fin 2) * 64 + 1 * k.val = k.val; rw [e1]; omega

/-- The left weights' one block is the whole matrix. -/
theorem wl_blk (c : Dev nD) (t : Fin cfg3.N) : (iblk3 V c 2 t : Vec Ideal S64x64 .f32) = wlArr V c := by
  obtain ⟨-, -, -, -, e0, e1, -⟩ := idx_facts t
  funext y
  unfold iblk3
  rw [View.read_apply]
  show V c main_arg11 _ = V c main_arg11 _
  refine congrArg _ (funext fun a => Fin.ext ?_)
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The bias' one block is the whole vector. -/
theorem bias_blk (c : Dev nD) (t : Fin cfg3.N) : (iblk3 V c 3 t : Vec Ideal S64 .f32) = biasArr V c := by
  obtain ⟨-, -, -, -, -, -, e0, -⟩ := idx_facts t
  funext y
  unfold iblk3
  rw [View.read_apply]
  show V c main_arg12 _ = V c main_arg12 _
  refine congrArg _ (funext fun a => Fin.ext ?_)
  match a with
  | ⟨0, _⟩ => show win3_3.index t (0 : Fin 1) * 64 + 1 * (y 0).val = (y 0).val; rw [e0]; omega

/-- The right weights' one block is the whole matrix. -/
theorem wr_blk (c : Dev nD) (t : Fin cfg3.N) : (iblk3 V c 4 t : Vec Ideal S64x64 .f32) = wrArr V c := by
  obtain ⟨-, -, -, -, -, -, -, e0, e1, -⟩ := idx_facts t
  funext y
  unfold iblk3
  rw [View.read_apply]
  show V c main_arg13 _ = V c main_arg13 _
  refine congrArg _ (funext fun a => Fin.ext ?_)
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

/-- The body's one store, at an entry of the block, from any five loaded blocks: the layer's entry on the block. -/
theorem body_apply (x0 x1 : Vec Ideal S10000x64 .f32) (x2 : Vec Ideal S64x64 .f32) (x3 : Vec Ideal S64 .f32)
    (x4 : Vec Ideal S64x64 .f32) (r : Fin 10000) (j : Fin 64) :
    out3_5 x0 x1 x2 x3 x4 (ix2 r j) = layerAt (R := 10000) (D := 64) x0 x1 x2 x3 x4 r j := by
  unfold out3_5
  rw [View.canon_unit_zero hz2]
  simp only [View.ld_unit_zero (S := S10000x64) hz2, View.ld_unit_zero (S := S64x64) hz2, View.ld_unit_zero (S := S64) hz1]
  unfold k3_pay1
  simp only [shapeCast_self]
  exact block_apply (R := 10000) (D := 64) _ _ x0 x1 x2 x3 x4 r j

/-- WHAT POINT `t` WRITES BACK is block `t` of the layer of the arrays as the call finds them. -/
theorem flushed_eq (c : Dev nD) (t : Fin cfg3.N) :
    (dat3 (F := Ideal) V c).flushed 5 t = ((cfg3.win 5).blk t).view.read (Elt Ideal) (result V c) := by
  obtain ⟨-, -, -, -, -, -, -, -, -, e0, e1⟩ := idx_facts t
  show (cfg3.win 5).cut (grid3.coords t) ((dat3 V c).after 5 t) = _
  rw [after3_5]
  funext y
  obtain ⟨r, j, rfl⟩ : ∃ (r : Fin 10000) (j : Fin 64), y = ix2 r j := ⟨y 0, y 1, eq_ix2 y⟩
  rw [View.read_apply]
  have he : ((cfg3.win 5).blk t).view.emb (ix2 r j) = (ix2 (rowOf t r) j : S100000x64.Idx) := by
    funext a
    apply Fin.ext
    match a with
    | ⟨0, _⟩ => show win3_5.index t (0 : Fin 2) * 10000 + 1 * r.val = t.val * 10000 + r.val; rw [e0]; omega
    | ⟨1, _⟩ => show win3_5.index t (1 : Fin 2) * 64 + 1 * j.val = j.val; rw [e1]; omega
  rw [he]
  show out3_5 (iblk3 V c 0 t) (iblk3 V c 1 t) (iblk3 V c 2 t) (iblk3 V c 3 t) (iblk3 V c 4 t) (ix2 r j)
    = layerAt (aggArr V c) (nodeArr V c) (wlArr V c) (biasArr V c) (wrArr V c) (rowOf t r) j
  refine (body_apply (iblk3 V c 0 t) (iblk3 V c 1 t) (iblk3 V c 2 t) (iblk3 V c 3 t) (iblk3 V c 4 t) r j).trans ?_
  exact layerAt_of_rows j (fun k => agg_blk V c t r k) (fun k => node_blk V c t r k) (wl_blk V c t) (bias_blk V c t) (wr_blk V c t)

/-- An index of the result array is in point `t`'s block iff its row is among the block's ten thousand. -/
theorem mem_blk (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v64).slice (win3_5.rect t)).set ↔ _
  rw [View.set_slice_whole, Rect.mem_set_unit]
  exact Iff.rfl

/-- THE RESULT ARRAY after the call's ten points is the layer of the arrays it read: the ten row blocks tile it. -/
theorem final (c : Dev nD) : (dat3 (F := Ideal) V c).arrAt 5 cfg3.N = result V c :=
  (dat3 (F := Ideal) V c).arrAt_eq_of_cover 5 (result V c) (fun t _ => flushed_eq V c t) fun i => by
    have hi0 : (i 0).val < 100000 := (i 0).isLt
    have hi1 : (i 1).val < 64 := (i 1).isLt
    have hN : cfg3.N = 10 := N_3
    let t : Fin cfg3.N := ⟨(i 0).val / 10000, by omega⟩
    obtain ⟨-, -, -, -, -, -, -, -, -, e0, e1⟩ := idx_facts t
    refine ⟨t, flush3_5 t, ?_⟩
    rw [mem_blk]
    intro a
    match a with
    | ⟨0, _⟩ =>
      show win3_5.index t (0 : Fin 2) * 10000 ≤ (i 0).val ∧ (i 0).val < win3_5.index t (0 : Fin 2) * 10000 + 10000
      rw [e0]; show (i 0).val / 10000 * 10000 ≤ (i 0).val ∧ (i 0).val < (i 0).val / 10000 * 10000 + 10000; omega
    | ⟨1, _⟩ =>
      show win3_5.index t (1 : Fin 2) * 64 ≤ (i 1).val ∧ (i 1).val < win3_5.index t (1 : Fin 2) * 64 + 64
      rw [e1]; omega

end Cert.KernelIdeal.Region3

end
-- ==== Proof.Region4.lean ====
/-
  Pallas call 4 of the five, at any contents `V` of the buffers when it is entered: its result array after its ten grid
  points is ONE layer (LayerSpec: `Cert.Sage.layer`) of the arrays it reads. Point `t` reads rows `10000·t … 10000·t + 9999`
  of the aggregated features and of the node features, the whole of both weight matrices and of the bias, and writes
  back the same rows of the result; a layer's row depends on the same row of its two feature operands only, so what a
  point writes back is the layer of the whole arrays read through the point's block, and the ten blocks tile the result.
-/
import proofs.«423088_j12189117186935_4_alg».proof.Proof.Gen.KernelIdeal.Frame
import proofs.«423088_j12189117186935_4_alg».proof.Proof.LayerSpec
import Idealize.ShloMosaic.Lib.Pipeline.Value
import Idealize.ShloMosaic.Lib.Tactic

set_option maxRecDepth 16384

noncomputable section

namespace Cert.KernelIdeal.Region4

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays the call reads, as it finds them, each at its literal type. -/
abbrev aggArr (c : Dev nD) : FVec Ideal S100000x64 .f32 := V c main_v76
abbrev nodeArr (c : Dev nD) : FVec Ideal S100000x64 .f32 := V c main_v64
abbrev wlArr (c : Dev nD) : FVec Ideal S64x17 .f32 := V c main_arg14
abbrev biasArr (c : Dev nD) : FVec Ideal S17 .f32 := V c main_arg15
abbrev wrArr (c : Dev nD) : FVec Ideal S64x17 .f32 := V c main_arg16

/-- The layer of those arrays: what the result array ends holding. -/
abbrev result (c : Dev nD) : FVec Ideal S100000x17 .f32 :=
  layer (aggArr V c) (nodeArr V c) (wlArr V c) (biasArr V c) (wrArr V c)

/-- The printed index maps over the grid: the three row-blocked windows are at block row `t`, the weights and the bias
    at their one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `r` of point `t`'s blocks is row `10000·t + r` of the arrays. -/
def rowOf (t : Fin cfg4.N) (r : Fin 10000) : Fin 100000 :=
  ⟨t.val * 10000 + r.val, by have := t.isLt; have hN : cfg4.N = 10 := N_4; have := r.isLt; omega⟩

/-- The aggregated-features block at point `t`. -/
theorem agg_blk (c : Dev nD) (t : Fin cfg4.N) (r : Fin 10000) (k : Fin 64) :
    (iblk4 V c 0 t : Vec Ideal S10000x64 .f32) (ix2 r k) = aggArr V c (ix2 (rowOf t r) k) := by
  obtain ⟨e0, e1, -⟩ := idx_facts t
  unfold iblk4
  rw [View.read_apply]
  show V c main_v76 _ = V c main_v76 _
  refine congrArg _ (funext fun a => Fin.ext ?_)
  match a with
  | ⟨0, _⟩ => show win4_0.index t (0 : Fin 2) * 10000 + 1 * r.val = t.val * 10000 + r.val; rw [e0]; omega
  | ⟨1, _⟩ => show win4_0.index t (1 : Fin 2) * 64 + 1 * k.val = k.val; rw [e1]; omega

/-- The node-features block at point `t`. -/
theorem node_blk (c : Dev nD) (t : Fin cfg4.N) (r : Fin 10000) (k : Fin 64) :
    (iblk4 V c 1 t : Vec Ideal S10000x64 .f32) (ix2 r k) = nodeArr V c (ix2 (rowOf t r) k) := by
  obtain ⟨-, -, e0, e1, -⟩ := idx_facts t
  unfold iblk4
  rw [View.read_apply]
  show V c main_v64 _ = V c main_v64 _
  refine congrArg _ (funext fun a => Fin.ext ?_)
  match a with
  | ⟨0, _⟩ => show win4_1.index t (0 : Fin 2) * 10000 + 1 * r.val = t.val * 10000 + r.val; rw [e0]; omega
  | ⟨1, _⟩ => show win4_1.index t (1 : Fin 2) * 64 + 1 * k.val = k.val; rw [e1]; omega

/-- The left weights' one block is the whole matrix. -/
theorem wl_blk (c : Dev nD) (t : Fin cfg4.N) : (iblk4 V c 2 t : Vec Ideal S64x17 .f32) = wlArr V c := by
  obtain ⟨-, -, -, -, e0, e1, -⟩ := idx_facts t
  funext y
  unfold iblk4
  rw [View.read_apply]
  show V c main_arg14 _ = V c main_arg14 _
  refine congrArg _ (funext fun a => Fin.ext ?_)
  match a with
  | ⟨0, _⟩ => show win4_2.index t (0 : Fin 2) * 64 + 1 * (y 0).val = (y 0).val; rw [e0]; omega
  | ⟨1, _⟩ => show win4_2.index t (1 : Fin 2) * 17 + 1 * (y 1).val = (y 1).val; rw [e1]; omega

/-- The bias' one block is the whole vector. -/
theorem bias_blk (c : Dev nD) (t : Fin cfg4.N) : (iblk4 V c 3 t : Vec Ideal S17 .f32) = biasArr V c := by
  obtain ⟨-, -, -, -, -, -, e0, -⟩ := idx_facts t
  funext y
  unfold iblk4
  rw [View.read_apply]
  show V c main_arg15 _ = V c main_arg15 _
  refine congrArg _ (funext fun a => Fin.ext ?_)
  match a with
  | ⟨0, _⟩ => show win4_3.index t (0 : Fin 1) * 17 + 1 * (y 0).val = (y 0).val; rw [e0]; omega

/-- The right weights' one block is the whole matrix. -/
theorem wr_blk (c : Dev nD) (t : Fin cfg4.N) : (iblk4 V c 4 t : Vec Ideal S64x17 .f32) = wrArr V c := by
  obtain ⟨-, -, -, -, -, -, -, e0, e1, -⟩ := idx_facts t
  funext y
  unfold iblk4
  rw [View.read_apply]
  show V c main_arg16 _ = V c main_arg16 _
  refine congrArg _ (funext fun a => Fin.ext ?_)
  match a with
  | ⟨0, _⟩ => show win4_4.index t (0 : Fin 2) * 64 + 1 * (y 0).val = (y 0).val; rw [e0]; omega
  | ⟨1, _⟩ => show win4_4.index t (1 : Fin 2) * 17 + 1 * (y 1).val = (y 1).val; rw [e1]; omega

/-- The body's one store, at an entry of the block, from any five loaded blocks: the layer's entry on the block. -/
theorem body_apply (x0 x1 : Vec Ideal S10000x64 .f32) (x2 : Vec Ideal S64x17 .f32) (x3 : Vec Ideal S17 .f32)
    (x4 : Vec Ideal S64x17 .f32) (r : Fin 10000) (j : Fin 17) :
    out4_5 x0 x1 x2 x3 x4 (ix2 r j) = layerAt (R := 10000) (D := 17) x0 x1 x2 x3 x4 r j := by
  unfold out4_5
  rw [View.canon_unit_zero hz2]
  simp only [View.ld_unit_zero (S := S10000x64) hz2, View.ld_unit_zero (S := S64x17) hz2, View.ld_unit_zero (S := S17) hz1]
  unfold k4_pay1
  simp only [shapeCast_self]
  exact block_apply (R := 10000) (D := 17) _ _ x0 x1 x2 x3 x4 r j

/-- WHAT POINT `t` WRITES BACK is block `t` of the layer of the arrays as the call finds them. -/
theorem flushed_eq (c : Dev nD) (t : Fin cfg4.N) :
    (dat4 (F := Ideal) V c).flushed 5 t = ((cfg4.win 5).blk t).view.read (Elt Ideal) (result V c) := by
  obtain ⟨-, -, -, -, -, -, -, -, -, e0, e1⟩ := idx_facts t
  show (cfg4.win 5).cut (grid4.coords t) ((dat4 V c).after 5 t) = _
  rw [after4_5]
  funext y
  obtain ⟨r, j, rfl⟩ : ∃ (r : Fin 10000) (j : Fin 17), y = ix2 r j := ⟨y 0, y 1, eq_ix2 y⟩
  rw [View.read_apply]
  have he : ((cfg4.win 5).blk t).view.emb (ix2 r j) = (ix2 (rowOf t r) j : S100000x17.Idx) := by
    funext a
    apply Fin.ext
    match a with
    | ⟨0, _⟩ => show win4_5.index t (0 : Fin 2) * 10000 + 1 * r.val = t.val * 10000 + r.val; rw [e0]; omega
    | ⟨1, _⟩ => show win4_5.index t (1 : Fin 2) * 17 + 1 * j.val = j.val; rw [e1]; omega
  rw [he]
  show out4_5 (iblk4 V c 0 t) (iblk4 V c 1 t) (iblk4 V c 2 t) (iblk4 V c 3 t) (iblk4 V c 4 t) (ix2 r j)
    = layerAt (aggArr V c) (nodeArr V c) (wlArr V c) (biasArr V c) (wrArr V c) (rowOf t r) j
  refine (body_apply (iblk4 V c 0 t) (iblk4 V c 1 t) (iblk4 V c 2 t) (iblk4 V c 3 t) (iblk4 V c 4 t) r j).trans ?_
  exact layerAt_of_rows j (fun k => agg_blk V c t r k) (fun k => node_blk V c t r k) (wl_blk V c t) (bias_blk V c t) (wr_blk V c t)

/-- An index of the result array is in point `t`'s block iff its row is among the block's ten thousand. -/
theorem mem_blk (t : Fin cfg4.N) (i : S100000x17.Idx) :
    i ∈ ((cfg4.win 5).blk t).view.set ↔ ∀ a : Fin 2, win4_5.index t a * S10000x17.size a ≤ (i a).val ∧ (i a).val < win4_5.index t a * S10000x17.size a + S10000x17.size a := by
  show i ∈ ((View.whole main_v77).slice (win4_5.rect t)).set ↔ _
  rw [View.set_slice_whole, Rect.mem_set_unit]
  exact Iff.rfl

/-- THE RESULT ARRAY after the call's ten points is the layer of the arrays it read: the ten row blocks tile it. -/
theorem final (c : Dev nD) : (dat4 (F := Ideal) V c).arrAt 5 cfg4.N = result V c :=
  (dat4 (F := Ideal) V c).arrAt_eq_of_cover 5 (result V c) (fun t _ => flushed_eq V c t) fun i => by
    have hi0 : (i 0).val < 100000 := (i 0).isLt
    have hi1 : (i 1).val < 17 := (i 1).isLt
    have hN : cfg4.N = 10 := N_4
    let t : Fin cfg4.N := ⟨(i 0).val / 10000, by omega⟩
    obtain ⟨-, -, -, -, -, -, -, -, -, e0, e1⟩ := idx_facts t
    refine ⟨t, flush4_5 t, ?_⟩
    rw [mem_blk]
    intro a
    match a with
    | ⟨0, _⟩ =>
      show win4_5.index t (0 : Fin 2) * 10000 ≤ (i 0).val ∧ (i 0).val < win4_5.index t (0 : Fin 2) * 10000 + 10000
      rw [e0]; show (i 0).val / 10000 * 10000 ≤ (i 0).val ∧ (i 0).val < (i 0).val / 10000 * 10000 + 10000; omega
    | ⟨1, _⟩ =>
      show win4_5.index t (1 : Fin 2) * 17 ≤ (i 1).val ∧ (i 1).val < win4_5.index t (1 : Fin 2) * 17 + 17
      rw [e1]; omega

end Cert.KernelIdeal.Region4

end
-- ==== Proof.KernelValue.lean ====
/-
  The kernel program's result as a function of its argument arrays.

  @main is five stretches of host operations, each followed by a pallas call. Every stretch computes, from the node
  features of the layer before, their neighbour sum (rows gathered at the edges' source nodes, added into the rows of
  the edges' target nodes) times the reciprocal of the clipped in-degree, which the first stretch computes once; the
  call then applies one layer (LayerSpec) to that mean and to the node features. Walking the buffer contents from the
  launch through the ten boundaries: the edge lists and the reciprocal degree are written once and kept, the weights are
  never written, each call's result is the layer of what it read, and a product with the reciprocal of a real that is
  at least one is the quotient. So the last call's result is LayerSpec's network of the arguments.
-/
import proofs.«423088_j12189117186935_4_alg».proof.Proof.Gen.KernelIdeal.Frame
import proofs.«423088_j12189117186935_4_alg».proof.Proof.LayerSpec
import proofs.«423088_j12189117186935_4_alg».proof.Proof.Region0
import proofs.«423088_j12189117186935_4_alg».proof.Proof.Region1
import proofs.«423088_j12189117186935_4_alg».proof.Proof.Region2
import proofs.«423088_j12189117186935_4_alg».proof.Proof.Region3
import proofs.«423088_j12189117186935_4_alg».proof.Proof.Region4
import Idealize.ShloMosaic.Lib.StableHlo.Run
import Idealize.ShloMosaic.Lib.Tactic

set_option maxRecDepth 16384

noncomputable section

namespace Cert.KernelIdeal.KValue

open Cert.KernelIdeal Cert.KernelIdeal.Gen Cert.Sage
open Idealize.ShloMosaic Idealize.ShloMosaic.TcCoe Idealize.SL.Sem Idealize.ShloMosaic.StableHlo

/-! ## The host side's functions of the edge list -/

/-- The edges' source nodes: row 0 of the edge list. -/
def src (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' target nodes: row 1 of the edge list. -/
def dst (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sum of a feature array: rows gathered at the source nodes (a negative node number wrapped once by the
    number of nodes), added into the rows of the target nodes. -/
def nbr (e : (⟨S2x1600000, .i32⟩ : BufTy).Contents (Elt Ideal)) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst e))
    (Host.gather gather_S100000x64_S1600000x1_S1600000x64_1_0_n_n_0_1_164 h
      (broadcastInDim S1600000x1 ![0] bcast_S1600000_S1600000x1_0
        (select (cmpi .slt (src e) (broadcastInDim S1600000 ![] bcast_S_S1600000 (constantI S_ 32 0#32)))
          (addi (src e) (broadcastInDim S1600000 ![] bcast_S_S1600000 (constantI S_ 32 100000#32))) (src e))))

/-- The clipped degree: ones added into the target nodes' entries, at least one. -/
def clipDeg (e : (⟨S2x1600000, .i32⟩ : BufTy).Contents (Elt Ideal)) : FVec Ideal S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dst e))
      (broadcastInDim S1600000 ![] bcast_S_S1600000 (constant S_ .f32 0x3F800000#32)))
    (broadcastInDim S100000 ![] bcast_S_S100000 (constant S_ .f32 0x3F800000#32))

/-- One over the clipped degree, as a column. -/
def invCol (e : (⟨S2x1600000, .i32⟩ : BufTy).Contents (Elt Ideal)) : FVec Ideal S100000x1 .f32 :=
  shapeCast _ (Host.divf (broadcastInDim S100000 ![] bcast_S_S100000 (constant S_ .f32 0x3F800000#32)) (clipDeg e))
    shapeCasts_S100000_S100000x1

/-- What a stretch hands its call: the neighbour sum times the reciprocal column repeated along the rows. -/
def agg (e : (⟨S2x1600000, .i32⟩ : BufTy).Contents (Elt Ideal)) (h : FVec Ideal S100000x64 .f32) : FVec Ideal S100000x64 .f32 :=
  mulf (nbr e h) (broadcastInDim S100000x64 ![0, 1] bcast_S100000x1_S100000x64_0_1 (invCol e))

/-- The clipped degree's entries are reals that are at least one: a finite count of ones, then the maximum with one. -/
theorem clipDeg_ge_one (e : (⟨S2x1600000, .i32⟩ : BufTy).Contents (Elt Ideal)) :
    ∀ i, ∃ r : ℝ, 1 ≤ r ∧ clipDeg e i = (r : EReal) :=
  Cert.Lib.maximumf_bcast_one_ge_one _
    (Cert.Lib.allReal_scatterAdd _ _ (Cert.Lib.allReal_broadcastInDim _ Cert.Lib.allReal_constant_zero)
      (Cert.Lib.allReal_broadcastInDim _ Cert.Lib.allReal_constant_one))

/-- So what a stretch hands its call is the mean over the neighbours. -/
theorem agg_eq_mean (e : (⟨S2x1600000, .i32⟩ : BufTy).Contents (Elt Ideal)) (h : FVec Ideal S100000x64 .f32) :
    agg e h = meanOf (nbr e h) (clipDeg e) :=
  mul_recip_eq_mean (nbr e h) (clipDeg e) (clipDeg_ge_one e) _ _ _

/-! ## Buffers a segment does not write -/

/-- A stretch of host operations that does not write the buffer keeps it. -/
macro "keep_host" : tactic => `(tactic|
  refine (StableHlo.after_of_forall_not_mem _ _ (List.forall_iff_forall_mem.mp (by
    simp only [hostOps0, hostOps1, hostOps2, hostOps3, hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A call keeps every buffer that is not one of its six arrays. -/
macro "keep_call0" : tactic => `(tactic| refine (W2_of_ne _ _ _ _ (by decide)).trans ?_)
macro "keep_call1" : tactic => `(tactic| refine (W4_of_ne _ _ _ _ (by decide)).trans ?_)
macro "keep_call2" : tactic => `(tactic| refine (W6_of_ne _ _ _ _ (by decide)).trans ?_)
macro "keep_call3" : tactic => `(tactic| refine (W8_of_ne _ _ _ _ (by decide)).trans ?_)

/-- From the entry of call `p` back to the launch, for a buffer nothing on the way writes. -/
macro "back_from1" : tactic => `(tactic| (keep_host))
macro "back_from3" : tactic => `(tactic| (keep_host; keep_call0; back_from1))
macro "back_from5" : tactic => `(tactic| (keep_host; keep_call1; back_from3))
macro "back_from7" : tactic => `(tactic| (keep_host; keep_call2; back_from5))
macro "back_from9" : tactic => `(tactic| (keep_host; keep_call3; back_from7))

variable (m : (ℓ : Loc nD τ sig) → Buf (Elt Ideal) ℓ) (ρ : Dev nD → PrngReg)

/-- The edge list as launched. -/
abbrev edges (c : Dev nD) : (⟨S2x1600000, .i32⟩ : BufTy).Contents (Elt Ideal) := (m ((c : Thread nD τ).loc main_arg1))

/-! ### The weights and biases at each call's entry are as launched -/

theorem W1_arg0 (c : Dev nD) : W1 m ρ c (Proc.devRef .tc main_arg0) = (m ((c : Thread nD τ).loc main_arg0)) := by back_from1; rfl
theorem W1_arg2 (c : Dev nD) : W1 m ρ c (Proc.devRef .tc main_arg2) = (m ((c : Thread nD τ).loc main_arg2)) := by back_from1; rfl
theorem W1_arg3 (c : Dev nD) : W1 m ρ c (Proc.devRef .tc main_arg3) = (m ((c : Thread nD τ).loc main_arg3)) := by back_from1; rfl
theorem W1_arg4 (c : Dev nD) : W1 m ρ c (Proc.devRef .tc main_arg4) = (m ((c : Thread nD τ).loc main_arg4)) := by back_from1; rfl
theorem W3_arg5 (c : Dev nD) : W3 m ρ c (Proc.devRef .tc main_arg5) = (m ((c : Thread nD τ).loc main_arg5)) := by back_from3; rfl
theorem W3_arg6 (c : Dev nD) : W3 m ρ c (Proc.devRef .tc main_arg6) = (m ((c : Thread nD τ).loc main_arg6)) := by back_from3; rfl
theorem W3_arg7 (c : Dev nD) : W3 m ρ c (Proc.devRef .tc main_arg7) = (m ((c : Thread nD τ).loc main_arg7)) := by back_from3; rfl
theorem W5_arg8 (c : Dev nD) : W5 m ρ c (Proc.devRef .tc main_arg8) = (m ((c : Thread nD τ).loc main_arg8)) := by back_from5; rfl
theorem W5_arg9 (c : Dev nD) : W5 m ρ c (Proc.devRef .tc main_arg9) = (m ((c : Thread nD τ).loc main_arg9)) := by back_from5; rfl
theorem W5_arg10 (c : Dev nD) : W5 m ρ c (Proc.devRef .tc main_arg10) = (m ((c : Thread nD τ).loc main_arg10)) := by back_from5; rfl
theorem W7_arg11 (c : Dev nD) : W7 m ρ c (Proc.devRef .tc main_arg11) = (m ((c : Thread nD τ).loc main_arg11)) := by back_from7; rfl
theorem W7_arg12 (c : Dev nD) : W7 m ρ c (Proc.devRef .tc main_arg12) = (m ((c : Thread nD τ).loc main_arg12)) := by back_from7; rfl
theorem W7_arg13 (c : Dev nD) : W7 m ρ c (Proc.devRef .tc main_arg13) = (m ((c : Thread nD τ).loc main_arg13)) := by back_from7; rfl
theorem W9_arg14 (c : Dev nD) : W9 m ρ c (Proc.devRef .tc main_arg14) = (m ((c : Thread nD τ).loc main_arg14)) := by back_from9; rfl
theorem W9_arg15 (c : Dev nD) : W9 m ρ c (Proc.devRef .tc main_arg15) = (m ((c : Thread nD τ).loc main_arg15)) := by back_from9; rfl
theorem W9_arg16 (c : Dev nD) : W9 m ρ c (Proc.devRef .tc main_arg16) = (m ((c : Thread nD τ).loc main_arg16)) := by back_from9; rfl

/-! ### The edge lists and the reciprocal column: written by the first stretch, kept by every later segment -/

set_option maxHeartbeats 4000000 in
theorem W1_v1 (c : Dev nD) : W1 m ρ c (Proc.devRef .tc main_v1) = src (edges m c) := by
  show StableHlo.after hostOps0 (W0 m ρ c) (Proc.devRef .tc main_v1) = _
  after_results_simp
  rfl
set_option maxHeartbeats 4000000 in
theorem W1_v3 (c : Dev nD) : W1 m ρ c (Proc.devRef .tc main_v3) = dst (edges m c) := by
  show StableHlo.after hostOps0 (W0 m ρ c) (Proc.devRef .tc main_v3) = _
  after_results_simp
  rfl
set_option maxHeartbeats 4000000 in
theorem W1_v12 (c : Dev nD) : W1 m ρ c (Proc.devRef .tc main_v12) = invCol (edges m c) := by
  show StableHlo.after hostOps0 (W0 m ρ c) (Proc.devRef .tc main_v12) = _
  after_results_simp
  rfl

theorem W2_v1 (c : Dev nD) : W2 m ρ c (Proc.devRef .tc main_v1) = src (edges m c) := by keep_call0; exact W1_v1 m ρ c
theorem W2_v3 (c : Dev nD) : W2 m ρ c (Proc.devRef .tc main_v3) = dst (edges m c) := by keep_call0; exact W1_v3 m ρ c
theorem W2_v12 (c : Dev nD) : W2 m ρ c (Proc.devRef .tc main_v12) = invCol (edges m c) := by keep_call0; exact W1_v12 m ρ c
theorem W4_v1 (c : Dev nD) : W4 m ρ c (Proc.devRef .tc main_v1) = src (edges m c) := by keep_call1; keep_host; exact W2_v1 m ρ c
theorem W4_v3 (c : Dev nD) : W4 m ρ c (Proc.devRef .tc main_v3) = dst (edges m c) := by keep_call1; keep_host; exact W2_v3 m ρ c
theorem W4_v12 (c : Dev nD) : W4 m ρ c (Proc.devRef .tc main_v12) = invCol (edges m c) := by keep_call1; keep_host; exact W2_v12 m ρ c
theorem W6_v1 (c : Dev nD) : W6 m ρ c (Proc.devRef .tc main_v1) = src (edges m c) := by keep_call2; keep_host; exact W4_v1 m ρ c
theorem W6_v3 (c : Dev nD) : W6 m ρ c (Proc.devRef .tc main_v3) = dst (edges m c) := by keep_call2; keep_host; exact W4_v3 m ρ c
theorem W6_v12 (c : Dev nD) : W6 m ρ c (Proc.devRef .tc main_v12) = invCol (edges m c) := by keep_call2; keep_host; exact W4_v12 m ρ c
theorem W8_v1 (c : Dev nD) : W8 m ρ c (Proc.devRef .tc main_v1) = src (edges m c) := by keep_call3; keep_host; exact W6_v1 m ρ c
theorem W8_v3 (c : Dev nD) : W8 m ρ c (Proc.devRef .tc main_v3) = dst (edges m c) := by keep_call3; keep_host; exact W6_v3 m ρ c
theorem W8_v12 (c : Dev nD) : W8 m ρ c (Proc.devRef .tc main_v12) = invCol (edges m c) := by keep_call3; keep_host; exact W6_v12 m ρ c

/-! ## The node features after each call -/

/-- The node features after one, two, … five convolutions of the arguments. -/
def feat1 (c : Dev nD) : FVec Ideal S100000x64 .f32 :=
  sage (nbr (edges m c)) (clipDeg (edges m c)) (m ((c : Thread nD τ).loc main_arg0)) (m ((c : Thread nD τ).loc main_arg2)) (m ((c : Thread nD τ).loc main_arg3)) (m ((c : Thread nD τ).loc main_arg4))
def feat2 (c : Dev nD) : FVec Ideal S100000x64 .f32 :=
  sage (nbr (edges m c)) (clipDeg (edges m c)) (feat1 m c) (m ((c : Thread nD τ).loc main_arg5)) (m ((c : Thread nD τ).loc main_arg6)) (m ((c : Thread nD τ).loc main_arg7))
def feat3 (c : Dev nD) : FVec Ideal S100000x64 .f32 :=
  sage (nbr (edges m c)) (clipDeg (edges m c)) (feat2 m c) (m ((c : Thread nD τ).loc main_arg8)) (m ((c : Thread nD τ).loc main_arg9)) (m ((c : Thread nD τ).loc main_arg10))
def feat4 (c : Dev nD) : FVec Ideal S100000x64 .f32 :=
  sage (nbr (edges m c)) (clipDeg (edges m c)) (feat3 m c) (m ((c : Thread nD τ).loc main_arg11)) (m ((c : Thread nD τ).loc main_arg12)) (m ((c : Thread nD τ).loc main_arg13))
def feat5 (c : Dev nD) : FVec Ideal S100000x17 .f32 :=
  sage (nbr (edges m c)) (clipDeg (edges m c)) (feat4 m c) (m ((c : Thread nD τ).loc main_arg14)) (m ((c : Thread nD τ).loc main_arg15)) (m ((c : Thread nD τ).loc main_arg16))

/-! ### What each stretch hands its call -/

set_option maxHeartbeats 4000000 in
theorem entry_agg0 (c : Dev nD) : V1 m ρ c main_v24 = agg (edges m c) (m ((c : Thread nD τ).loc main_arg0)) := by
  show StableHlo.after hostOps0 (W0 m ρ c) (Proc.devRef .tc main_v24) = _
  after_results_simp
  rfl
set_option maxHeartbeats 4000000 in
theorem entry_agg1 (c : Dev nD) : V3 m ρ c main_v37 = agg (edges m c) (W2 m ρ c (Proc.devRef .tc main_v25)) := by
  show StableHlo.after hostOps1 (W2 m ρ c) (Proc.devRef .tc main_v37) = _
  after_results_simp
  rw [W2_v1, W2_v3, W2_v12]
  rfl
set_option maxHeartbeats 4000000 in
theorem entry_agg2 (c : Dev nD) : V5 m ρ c main_v50 = agg (edges m c) (W4 m ρ c (Proc.devRef .tc main_v38)) := by
  show StableHlo.after hostOps2 (W4 m ρ c) (Proc.devRef .tc main_v50) = _
  after_results_simp
  rw [W4_v1, W4_v3, W4_v12]
  rfl
set_option maxHeartbeats 4000000 in
theorem entry_agg3 (c : Dev nD) : V7 m ρ c main_v63 = agg (edges m c) (W6 m ρ c (Proc.devRef .tc main_v51)) := by
  show StableHlo.after hostOps3 (W6 m ρ c) (Proc.devRef .tc main_v63) = _
  after_results_simp
  rw [W6_v1, W6_v3, W6_v12]
  rfl
set_option maxHeartbeats 4000000 in
theorem entry_agg4 (c : Dev nD) : V9 m ρ c main_v76 = agg (edges m c) (W8 m ρ c (Proc.devRef .tc main_v64)) := by
  show StableHlo.after hostOps4 (W8 m ρ c) (Proc.devRef .tc main_v76) = _
  after_results_simp
  rw [W8_v1, W8_v3, W8_v12]
  rfl

/-- The node features a call reads are what the call before left: its stretch does not write them. -/
theorem entry_node1 (c : Dev nD) : V3 m ρ c main_v25 = W2 m ρ c (Proc.devRef .tc main_v25) := by keep_host; rfl
theorem entry_node2 (c : Dev nD) : V5 m ρ c main_v38 = W4 m ρ c (Proc.devRef .tc main_v38) := by keep_host; rfl
theorem entry_node3 (c : Dev nD) : V7 m ρ c main_v51 = W6 m ρ c (Proc.devRef .tc main_v51) := by keep_host; rfl
theorem entry_node4 (c : Dev nD) : V9 m ρ c main_v64 = W8 m ρ c (Proc.devRef .tc main_v64) := by keep_host; rfl

/-! ### Each call's result -/

/-- After the first call its result buffer holds the first convolution of the arguments. -/
theorem out0 (c : Dev nD) : W2 m ρ c (Proc.devRef .tc main_v25) = feat1 m c := by
  refine (W2_arr m ρ c 5).trans ((Region0.final (V1 m ρ) c).trans ?_)
  show layer (V1 m ρ c main_v24) (V1 m ρ c main_arg0) (V1 m ρ c main_arg2) (V1 m ρ c main_arg3) (V1 m ρ c main_arg4) = _
  rw [entry_agg0, agg_eq_mean]
  show layer _ (W1 m ρ c (Proc.devRef .tc main_arg0)) (W1 m ρ c (Proc.devRef .tc main_arg2)) (W1 m ρ c (Proc.devRef .tc main_arg3)) (W1 m ρ c (Proc.devRef .tc main_arg4)) = _
  rw [W1_arg0, W1_arg2, W1_arg3, W1_arg4]
  rfl

theorem out1 (c : Dev nD) : W4 m ρ c (Proc.devRef .tc main_v38) = feat2 m c := by
  refine (W4_arr m ρ c 5).trans ((Region1.final (V3 m ρ) c).trans ?_)
  show layer (V3 m ρ c main_v37) (V3 m ρ c main_v25) (V3 m ρ c main_arg5) (V3 m ρ c main_arg6) (V3 m ρ c main_arg7) = _
  rw [entry_agg1, entry_node1, out0, agg_eq_mean]
  show layer _ _ (W3 m ρ c (Proc.devRef .tc main_arg5)) (W3 m ρ c (Proc.devRef .tc main_arg6)) (W3 m ρ c (Proc.devRef .tc main_arg7)) = _
  rw [W3_arg5, W3_arg6, W3_arg7]
  rfl

theorem out2 (c : Dev nD) : W6 m ρ c (Proc.devRef .tc main_v51) = feat3 m c := by
  refine (W6_arr m ρ c 5).trans ((Region2.final (V5 m ρ) c).trans ?_)
  show layer (V5 m ρ c main_v50) (V5 m ρ c main_v38) (V5 m ρ c main_arg8) (V5 m ρ c main_arg9) (V5 m ρ c main_arg10) = _
  rw [entry_agg2, entry_node2, out1, agg_eq_mean]
  show layer _ _ (W5 m ρ c (Proc.devRef .tc main_arg8)) (W5 m ρ c (Proc.devRef .tc main_arg9)) (W5 m ρ c (Proc.devRef .tc main_arg10)) = _
  rw [W5_arg8, W5_arg9, W5_arg10]
  rfl

theorem out3 (c : Dev nD) : W8 m ρ c (Proc.devRef .tc main_v64) = feat4 m c := by
  refine (W8_arr m ρ c 5).trans ((Region3.final (V7 m ρ) c).trans ?_)
  show layer (V7 m ρ c main_v63) (V7 m ρ c main_v51) (V7 m ρ c main_arg11) (V7 m ρ c main_arg12) (V7 m ρ c main_arg13) = _
  rw [entry_agg3, entry_node3, out2, agg_eq_mean]
  show layer _ _ (W7 m ρ c (Proc.devRef .tc main_arg11)) (W7 m ρ c (Proc.devRef .tc main_arg12)) (W7 m ρ c (Proc.devRef .tc main_arg13)) = _
  rw [W7_arg11, W7_arg12, W7_arg13]
  rfl

theorem out4 (c : Dev nD) : W10 m ρ c (Proc.devRef .tc main_v77) = feat5 m c := by
  refine (W10_arr m ρ c 5).trans ((Region4.final (V9 m ρ) c).trans ?_)
  show layer (V9 m ρ c main_v76) (V9 m ρ c main_v64) (V9 m ρ c main_arg14) (V9 m ρ c main_arg15) (V9 m ρ c main_arg16) = _
  rw [entry_agg4, entry_node4, out3, agg_eq_mean]
  show layer _ _ (W9 m ρ c (Proc.devRef .tc main_arg14)) (W9 m ρ c (Proc.devRef .tc main_arg15)) (W9 m ρ c (Proc.devRef .tc main_arg16)) = _
  rw [W9_arg14, W9_arg15, W9_arg16]
  rfl

/-- THE RESULT: the last call's result buffer after the run is the network of the arguments. -/
theorem value (c : Dev nD) : W10 m ρ c (Proc.devRef .tc main_v77)
    = net (nbr (edges m c)) (clipDeg (edges m c)) (m ((c : Thread nD τ).loc main_arg0))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  out4 m ρ c

end Cert.KernelIdeal.KValue

end
-- ==== Proof.RefValue.lean ====
/-
  The reference's result as the network of LayerSpec.

  The reference's run ends with its result at ONE composed term of the argument arrays (the generated run): five times
  over, the neighbour sum of the features so far (rows gathered at the edges' source nodes, a negative node number wrapped
  once by the number of nodes, added into the rows of the edges' target nodes) divided by the clipped in-degree broadcast
  along the rows, two general matrix products, the bias broadcast in two steps, and a maximum with zero. Folding, inside
  that term, each neighbour sum and the clipped degree into their names, each quotient into the mean and each layer's
  operations into LayerSpec's layer leaves the network, literally.
-/
import proofs.«423088_j12189117186935_4_alg».proof.Defs
import proofs.«423088_j12189117186935_4_alg».proof.Proof.Gen.ReferenceIdeal
import proofs.«423088_j12189117186935_4_alg».proof.Proof.Gen.ReferenceIdeal.Run
import proofs.«423088_j12189117186935_4_alg».proof.Proof.LayerSpec

set_option maxRecDepth 16384

noncomputable section

namespace Cert.ReferenceIdeal.RefValue

open Cert.ReferenceIdeal Cert.ReferenceIdeal.Gen Cert.ReferenceIdeal.Value Cert.Sage
open Idealize.ShloMosaic Idealize.ShloMosaic.TcCoe Idealize.SL.Sem

/-- The edges' source nodes: row 0 of the edge list. -/
def src (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The neighbour sum of a feature array: rows gathered at the (wrapped) source nodes, added into the rows of the
    target nodes. -/
def nbr (e : (⟨S2x1600000, .i32⟩ : BufTy).Contents (Elt Ideal)) (h : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 (shapeCast _ (extractStridedSlice S1x1600000 ![1, 0] e slices_S2x1600000_S1x1600000_1_0) shapeCasts_S1x1600000_S1600000))
    (Host.gather gather_S100000x64_S1600000x1_S1600000x64_1_0_n_n_0_1_164 h (broadcastInDim S1600000x1 ![0] bcast_S1600000_S1600000x1_0 (select (cmpi .slt (src e) (broadcastInDim S1600000 ![] bcast_S_S1600000 (constantI S_ 32 0#32))) (addi (src e) (broadcastInDim S1600000 ![] bcast_S_S1600000 (constantI S_ 32 100000#32))) (src e))))

/-- The clipped degree: ones added into the target nodes' entries, at least one. -/
def clipDeg (e : (⟨S2x1600000, .i32⟩ : BufTy).Contents (Elt Ideal)) : FVec Ideal S100000 .f32 :=
  maximumf (Host.scatterAdd scatter_S100000_S1600000x1_S1600000_n_0_0_1 (broadcastInDim S100000 ![] bcast_S_S100000 (constant S_ .f32 0x00000000#32))
      (broadcastInDim S1600000x1 ![0] bcast_S1600000_S1600000x1_0 (shapeCast _ (extractStridedSlice S1x1600000 ![1, 0] e slices_S2x1600000_S1x1600000_1_0) shapeCasts_S1x1600000_S1600000))
      (broadcastInDim S1600000 ![] bcast_S_S1600000 (constant S_ .f32 0x3F800000#32)))
    (broadcastInDim S100000 ![] bcast_S_S100000 (constant S_ .f32 0x3F800000#32))

variable (m : (ℓ : Loc nD τ sig) → Buf (Elt Ideal) ℓ)

/-- The neighbour sum as it stands in the run's term, with the launched edge list inside, is `nbr` of the edge list. -/
theorem nbr_fold (c : Dev nD) (h : FVec Ideal S100000x64 .f32) :
    Host.scatterAdd scatter_S100000x64_S1600000x1_S1600000x64_1_0_0_1 (broadcastInDim S100000x64 ![] bcast_S_S100000x64 (constant S_ .f32 0x00000000#32))
      (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000))
      (Host.gather gather_S100000x64_S1600000x1_S1600000x64_1_0_n_n_0_1_164 h (broadcastInDim S1600000x1 ![0] bcast_S1600000_S1600000x1_0 (select (cmpi .slt (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg1)) slices_S2x1600000_S1x1600000_0_0) shapeCasts_S1x1600000_S1600000))))
      = nbr (m ((c.tc : Thread nD τ).loc main_arg1)) h := rfl

/-- The clipped degree as it stands in the run's term. -/
theorem deg_fold (c : Dev nD) :
    maximumf (Host.scatterAdd scatter_S100000_S1600000x1_S1600000_n_0_0_1 (broadcastInDim S100000 ![] bcast_S_S100000 (constant S_ .f32 0x00000000#32))
        (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000))
        (broadcastInDim S1600000 ![] bcast_S_S1600000 (constant S_ .f32 0x3F800000#32)))
      (broadcastInDim S100000 ![] bcast_S_S100000 (constant S_ .f32 0x3F800000#32))
      = clipDeg (m ((c.tc : Thread nD τ).loc main_arg1)) := rfl

/-- Dividing by the clipped degree broadcast to a column and along the rows is the mean (LayerSpec), in the program's spelling. -/
theorem ref_mean (S : FVec Ideal S100000x64 .f32) (d : FVec Ideal S100000 .f32) :
    Host.divf S (broadcastInDim S100000x64 ![0, 1] bcast_S100000x1_S100000x64_0_1 (broadcastInDim S100000x1 ![0] bcast_S100000_S100000x1_0 d)) = meanOf S d :=
  div_bcast_eq_mean S d _ _

/-- A 64-column layer's host operations are LayerSpec's layer, in the program's spelling (its contraction record is the
    plain product's). -/
theorem ref_layer64 (a h : FVec Ideal S100000x64 .f32) (wl : FVec Ideal S64x64 .f32) (b : FVec Ideal S64 .f32) (wr : FVec Ideal S64x64 .f32) :
    maximumf (addf (addf (Host.dotGeneral dot_S100000x64_S64x64_S100000x64_1_0_0_1_n_n none a wl)
        (broadcastInDim S100000x64 ![0, 1] bcast_S1x64_S100000x64_0_1 (broadcastInDim S1x64 ![1] bcast_S64_S1x64_1 b)))
        (Host.dotGeneral dot_S100000x64_S64x64_S100000x64_1_0_0_1_n_n none h wr))
      (broadcastInDim S100000x64 ![] bcast_S_S100000x64 (constant S_ .f32 0x00000000#32)) = layer a h wl b wr :=
  host_layer _ _ _ a h wl b wr

/-- The 17-column layer likewise. -/
theorem ref_layer17 (a h : FVec Ideal S100000x64 .f32) (wl : FVec Ideal S64x17 .f32) (b : FVec Ideal S17 .f32) (wr : FVec Ideal S64x17 .f32) :
    maximumf (addf (addf (Host.dotGeneral dot_S100000x64_S64x17_S100000x17_1_0_0_1_n_n none a wl)
        (broadcastInDim S100000x17 ![0, 1] bcast_S1x17_S100000x17_0_1 (broadcastInDim S1x17 ![1] bcast_S17_S1x17_1 b)))
        (Host.dotGeneral dot_S100000x64_S64x17_S100000x17_1_0_0_1_n_n none h wr))
      (broadcastInDim S100000x17 ![] bcast_S_S100000x17 (constant S_ .f32 0x00000000#32)) = layer a h wl b wr :=
  host_layer _ _ _ a h wl b wr

set_option maxHeartbeats 8000000 in
/-- THE REFERENCE'S RESULT is the network of its arguments over its own neighbour sum and clipped degree. -/
theorem value (c : Dev nD) :
    res_main_v133 (F := Ideal) m c = net (nbr (m ((c.tc : Thread nD τ).loc main_arg1))) (clipDeg (m ((c.tc : Thread nD τ).loc main_arg1))) (m ((c.tc : Thread nD τ).loc main_arg0))
      (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold res_main_v133
  rw [deg_fold]
  repeat rw [nbr_fold]
  repeat rw [ref_mean]
  repeat rw [ref_layer64]
  rw [ref_layer17]
  rfl

end Cert.ReferenceIdeal.RefValue

end
-- ==== Proof.Claims.lean ====
/-
  The five claims.

  Both programs are the same network (LayerSpec) of their argument arrays: the kernel program by walking its buffers
  through its five host stretches and five pallas calls (KernelValue, over the run with its result named), the
  reference by rewriting its run's composed term layer by layer (RefValue). The kernel program normalises the neighbour
  sum by multiplying with the reciprocal of the clipped degree, the reference by dividing by the clipped degree: the
  same mean on every extended real, the clipped degree being a real that is at least one. The two programs' neighbour
  sums and clipped degrees are one function of the edge list, spelt with each program's own names. So from memories that
  agree on the arguments the two runs end with equal results. The frames of the two kernel programs are generated; the
  reference's frame is its generated run with the result dropped; nothing was rewritten by the idealization.
-/
import proofs.«423088_j12189117186935_4_alg».proof.Proof.Gen.Kernel.Frame
import proofs.«423088_j12189117186935_4_alg».proof.Proof.Gen.KernelIdeal.Frame
import proofs.«423088_j12189117186935_4_alg».proof.Proof.Gen.ReferenceIdeal.Run
import proofs.«423088_j12189117186935_4_alg».proof.Proof.Gen.Pre_finite_inputs
import proofs.«423088_j12189117186935_4_alg».proof.Proof.KernelIdealRun
import proofs.«423088_j12189117186935_4_alg».proof.Proof.KernelValue
import proofs.«423088_j12189117186935_4_alg».proof.Proof.RefValue

noncomputable section

open Idealize.ShloMosaic Idealize.ShloMosaic.TcCoe Idealize.SL.Sem

namespace Cert.Proof.Claims

/-- The two programs gather and add with the same dimension numbers, wrap a negative source node the same way and
    start from the same zeros: their neighbour sums are one function. -/
theorem nbr_eq (e : (⟨Cert.KernelIdeal.S2x1600000, .i32⟩ : BufTy).Contents (Elt Ideal)) :
    Cert.ReferenceIdeal.RefValue.nbr e = Cert.KernelIdeal.KValue.nbr e := rfl

/-- Their clipped degrees are one function too. -/
theorem clipDeg_eq (e : (⟨Cert.KernelIdeal.S2x1600000, .i32⟩ : BufTy).Contents (Elt Ideal)) :
    Cert.ReferenceIdeal.RefValue.clipDeg e = Cert.KernelIdeal.KValue.clipDeg e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Sage.net (Cert.KernelIdeal.KValue.nbr (m ((c.tc : Thread Cert.KernelIdeal.nD Cert.KernelIdeal.τ).loc Cert.KernelIdeal.main_arg1))) (Cert.KernelIdeal.KValue.clipDeg (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun _ h c => ⟨(h c).1.trans (Cert.KernelIdeal.KValue.value m ρ c), (h c).2⟩)
      (Cert.KernelIdeal.RunV.run (F := Ideal) m ρ)
  · refine (θ_run Cert.ReferenceIdeal.defs _ _).mono (fun _ h c => ⟨(h c).1.trans ?_, (h c).2⟩) (Cert.ReferenceIdeal.Value.run (F := Ideal) m' ρ')
    refine (Cert.ReferenceIdeal.RefValue.value m' c).trans ?_
    obtain ⟨h0, h1, h2, h3, h4, h5, h6, h7, h8, h9, h10, h11, h12, h13, h14, h15, h16⟩ := hagree c
    rw [h0, h1, h2, h3, h4, h5, h6, h7, h8, h9, h10, h11, h12, h13, h14, h15, h16, nbr_eq, clipDeg_eq]

end Cert.Proof.Claims

end
-- ==== Proof.lean ====
/-
  `Cert.Claim`: a five-layer graph convolution with mean aggregation, each layer's two matrix products, bias and
  maximum with zero run as a pallas call tiled over ten blocks of ten thousand rows between host stretches that gather
  and add the neighbours' rows, against the same network written with host operations only. Both programs compute
  LayerSpec's network of their arguments (Proof/Claims.lean, over Proof/KernelValue.lean and Proof/RefValue.lean); the
  witnesses of the programs' stated facts are the generated ones.
-/
import proofs.«423088_j12189117186935_4_alg».proof.Defs
import proofs.«423088_j12189117186935_4_alg».proof.Proof.Gen.Kernel
import proofs.«423088_j12189117186935_4_alg».proof.Proof.Gen.KernelIdeal
import proofs.«423088_j12189117186935_4_alg».proof.Proof.Gen.ReferenceIdeal
import proofs.«423088_j12189117186935_4_alg».proof.Proof.Gen.Pre_finite_inputs
import proofs.«423088_j12189117186935_4_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
